-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .bf16⟩
  | .hbm, ⟨8, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  natLt_1_32 : 1 < 32
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .bf16 = 32 ∨ (Rect.block (s := S8192x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .bf16 = 32 ∨ (Rect.block (s := S8192x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K.L0Body.lean ====
/-
  Layer 0 (the first dense layer with its clamp at zero), one grid point at a time.

  The grid is 16 x 4 x 4: a row tile, a column tile, and a step along the contracted axis.  A point's
  behaviour depends only on that last coordinate: at step 0 the accumulator is reset and receives the first
  block product; at steps 1 and 2 it receives one more block product; at step 3 it receives the last one and
  the output tile becomes the clamp of (accumulator + bias row).  This module fixes those three behaviours:
  which points are which, where the output tile is untouched, and the body's run in each of the three.
-/
import proofs.«137112_j54778012893659_1_alg».proof.Proof.Gen.Kernel.Launch
import proofs.«137112_j54778012893659_1_alg».proof.Proof.Gen.Kernel.Skeleton
import proofs.«137112_j54778012893659_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which step along the contracted axis a point is at -/

/-- The point is at step 0 of the contracted axis: the accumulator is reset there. -/
abbrev firstK0 (i : grid0.Coords) : Prop := (Scalar.cmpi .ne (Scalar.extui (Scalar.cmpi .eq (BitVec.ofNat 32 (i 2).val) 0#32)) 0#32) = 1#1
/-- Step 0 is every fourth point, starting with the first. -/
theorem firstK0_iff : ∀ t : Fin cfg0.N, firstK0 (grid0.coords t) ↔ t.val % 4 = 0 :=
  (by decide +kernel : ∀ t : Fin grid0.N, firstK0 (grid0.coords t) ↔ t.val % 4 = 0)

/-- The point is at the last step (3) of the contracted axis: the output tile is produced there. -/
abbrev lastK0 (i : grid0.Coords) : Prop := k0_cond2 i = 1#1
/-- The last step is every fourth point, starting with the fourth. -/
theorem lastK0_iff : ∀ t : Fin cfg0.N, lastK0 (grid0.coords t) ↔ t.val % 4 = 3 :=
  (by decide +kernel : ∀ t : Fin grid0.N, lastK0 (grid0.coords t) ↔ t.val % 4 = 3)

/-! ## Where the output tile is untouched -/

/-- Away from the last step the output tile is neither stored into nor written back. -/
theorem outIdle0 : ∀ t : Fin cfg0.N, ¬ t.val % 4 = 3 → cfg0.idle 3 (grid0.coords t) = true :=
  (by decide +kernel : ∀ t : Fin grid0.N, ¬ t.val % 4 = 3 → idle0 3 (grid0.coords t) = true)
theorem outKept0 (t : Fin cfg0.N) (h : ¬ t.val % 4 = 3) : (cfg0.win 3).flush t = false :=
  Bool.eq_false_iff.mpr fun hf => h ((flush0_3 t).mp hf)
/-- At the last step it is stored into. -/
theorem outLive0 : ∀ t : Fin cfg0.N, t.val % 4 = 3 → cfg0.idle 3 (grid0.coords t) = false :=
  (by decide +kernel : ∀ t : Fin grid0.N, t.val % 4 = 3 → idle0 3 (grid0.coords t) = false)

/-! ## The memrefs the body is called with -/

/-- The activation tile's, the weight tile's, the bias row's and the output tile's current buffer at point `t`. -/
abbrev sx0 (t : Fin cfg0.N) : Memref sig .tc .vmem S512x1024 .f32 := win0_0.stage (cfg0.slots t 0)
abbrev hsx0 (t : Fin cfg0.N) : (sx0 t).IsWhole := hstage0_0 ((cfg0.slots t 0).cast nbuf0_0)
abbrev sw0 (t : Fin cfg0.N) : Memref sig .tc .vmem S1024x1024 .f32 := win0_1.stage (cfg0.slots t 1)
abbrev hsw0 (t : Fin cfg0.N) : (sw0 t).IsWhole := hstage0_1 ((cfg0.slots t 1).cast nbuf0_1)
abbrev sb0 (t : Fin cfg0.N) : Memref sig .tc .vmem S1x1024 .f32 := win0_2.stage (cfg0.slots t 2)
abbrev hsb0 (t : Fin cfg0.N) : (sb0 t).IsWhole := hstage0_2 ((cfg0.slots t 2).cast nbuf0_2)
abbrev so0 (t : Fin cfg0.N) : Memref sig .tc .vmem S512x1024 .bf16 := win0_3.stage (cfg0.slots t 3)
abbrev hso0 (t : Fin cfg0.N) : (so0 t).IsWhole := hstage0_3 ((cfg0.slots t 3).cast nbuf0_3)
/-- The accumulator: a whole buffer of the kernel's own, carried from point to point. -/
abbrev accM0 : Memref sig .tc .vmem S512x1024 .f32 := Memref.whole cc0_scratch0
abbrev accV0 : View sig .tc .vmem S512x1024 .f32 := accM0.view
/-- One buffer of the output tile, through which its contents are stated. -/
abbrev outV0 : View sig .tc .vmem S512x1024 .bf16 := (Memref.whole cc0_stg3_0 : Memref sig .tc .vmem S512x1024 .bf16).view

/-! ## The region's invariant, opened at the accumulator -/

/-- Every buffer the region may use and need not describe, other than the accumulator: the other layer's buffers. -/
def side0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region is entered with: the accumulator at anything, the other buffers, the generator register. -/
theorem PhiA0_eq (c : Dev nD) :
    (Pipeline.ΦA spec0 c : sProp 𝕄)
      = iprop(iprop((∃ d, owns (c : Thread nD τ) accM0 fullShare d) ∗ side0 c) ∗ (∃ r, prngReg c r)) := by
  unfold Pipeline.ΦA side0; rw [scopedRest0_eq]; simp only [accM0, owns_whole]; try rfl

/-! ## The body's run at each of the three kinds of point -/

set_option maxHeartbeats 1000000 in
/-- STEP 0.  On whole buffers — the three inputs at their contents, the output tile at contents handed back
    untouched, the accumulator at anything — the body runs and leaves the accumulator with the pieces found
    here: the reset, then the first block product added. -/
noncomputable def runFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) :
    { LS : List (View.Piece (Elt F) S512x1024 .f32) //
      ∀ (xo : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun xo E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- STEPS 1 AND 2.  The same, the accumulator at what the point before left: one more block product added. -/
noncomputable def runMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) :
    { LS : List (View.Piece (Elt F) S512x1024 .f32) //
      ∀ (xo : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun xo E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- STEP 3.  The accumulator at what the point before left, the output tile at anything: the last block product
    is added, and the output tile is stored with the pieces found here (the clamp of accumulator plus bias). -/
noncomputable def runLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Layers

end
-- ==== Proof.K.L0Data.lean ====
/-
  Layer 0 as a pipeline's proof data, at the buffer contents `V` the region is entered with.

  Per row tile and column tile the accumulator runs through the four steps of the contracted axis: after
  step 0 it holds the reset value plus the first block product, after each later step the previous contents
  plus that step's block product.  The output tile is produced at step 3 only: the clamp of (accumulator +
  bias row).  This module states the accumulator after every point (`accAt0`), the invariant that carries it
  from one point to the next, and proves that the body, at every point, takes the one to the other.
-/
import proofs.«137112_j54778012893659_1_alg».proof.Proof.K.L0Body
import Idealize.ShloMosaic.Lib.Pipeline.Value

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-tile access are zero. -/
theorem zz0 : (![0, 0] : Fin 2 → Nat) = fun _ => 0 := funext fun a => by fin_cases a <;> rfl

/-! ## What the three runs leave, as values -/

/-- Step 0 leaves the accumulator at the first block product added to the reset value. -/
theorem accFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) :
    View.canon (runFirst0 c i arg3 harg3 arg4 harg4 arg5 harg5 arg6 harg6 arg7 harg7 hc0 hc1 x0 x1 x2).1 = k0_pay2 x0 x1 (k0_pay1 (F := F)) := by
  unfold runFirst0
  dsimp only
  sl_unfold_words
  rw [View.canon_cons_unit_zero (S := S512x1024) zz0]
  simp only [View.readAt_eq_ld, harg3.read_unread, harg4.read_unread, View.ld_unit_zero (S := S512x1024) zz0, View.ld_unit_zero (S := S1024x1024) zz0, View.readCov_unit_zero (S := S512x1024) _ zz0]

/-- Steps 1 and 2 leave it at one more block product added to what it held. -/
theorem accMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) :
    View.canon (runMid0 c i arg3 harg3 arg4 harg4 arg5 harg5 arg6 harg6 arg7 harg7 hc0 hc1 x0 x1 x2 xs).1 = k0_pay2 x0 x1 xs := by
  unfold runMid0
  dsimp only
  sl_unfold_words
  rw [View.canon_unit_zero (S := S512x1024) zz0]
  simp only [View.readAt_eq_ld, harg3.read_unread, harg4.read_unread, harg7.read_unread, View.ld_unit_zero (S := S512x1024) zz0, View.ld_unit_zero (S := S1024x1024) zz0]

/-- Step 3 likewise, -/
theorem accLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    View.canon (runLast0 c i arg3 harg3 arg4 harg4 arg5 harg5 arg6 harg6 arg7 harg7 hc0 hc1 x0 x1 x2 xs).2.1 = k0_pay2 x0 x1 xs := by
  unfold runLast0
  dsimp only
  sl_unfold_words
  rw [View.canon_unit_zero (S := S512x1024) zz0]
  simp only [View.readAt_eq_ld, harg3.read_unread, harg4.read_unread, harg7.read_unread, View.ld_unit_zero (S := S512x1024) zz0, View.ld_unit_zero (S := S1024x1024) zz0]

/-- and leaves the output tile at the epilogue of that accumulator and the bias row. -/
theorem outLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    View.canon (runLast0 c i arg3 harg3 arg4 harg4 arg5 harg5 arg6 harg6 arg7 harg7 hc0 hc1 x0 x1 x2 xs).1 = k0_pay3 (k0_pay2 x0 x1 xs) x2 := by
  unfold runLast0
  dsimp only
  sl_unfold_words
  rw [View.canon_unit_zero (S := S512x1024) zz0]
  simp only [View.readAt_eq_ld, harg3.read_unread, harg4.read_unread, harg5.read_unread, harg7.read_unread, View.ld_unit_zero (S := S512x1024) zz0, View.ld_unit_zero (S := S1024x1024) zz0, View.ld_unit_zero (S := S1x1024) zz0, View.readCov_unit_zero (S := S512x1024) _ zz0]

/-! ## The runs' stores cover the buffers they write -/

theorem coverFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) (y : S512x1024.Idx) :
    ∃ pc ∈ (runFirst0 c i arg3 harg3 arg4 harg4 arg5 harg5 arg6 harg6 arg7 harg7 hc0 hc1 x0 x1 x2).1, y ∈ pc.1.set :=
  View.cover_of_tiledL (runFirst0 c i arg3 harg3 arg4 harg4 arg5 harg5 arg6 harg6 arg7 harg7 hc0 hc1 x0 x1 x2).1 S512x1024.size (by sl_kernel_rfl) y
theorem coverMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) (y : S512x1024.Idx) :
    ∃ pc ∈ (runMid0 c i arg3 harg3 arg4 harg4 arg5 harg5 arg6 harg6 arg7 harg7 hc0 hc1 x0 x1 x2 xs).1, y ∈ pc.1.set :=
  View.cover_of_tiledL (runMid0 c i arg3 harg3 arg4 harg4 arg5 harg5 arg6 harg6 arg7 harg7 hc0 hc1 x0 x1 x2 xs).1 S512x1024.size (by sl_kernel_rfl) y
theorem coverLastAcc0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) (y : S512x1024.Idx) :
    ∃ pc ∈ (runLast0 c i arg3 harg3 arg4 harg4 arg5 harg5 arg6 harg6 arg7 harg7 hc0 hc1 x0 x1 x2 xs).2.1, y ∈ pc.1.set :=
  View.cover_of_tiledL (runLast0 c i arg3 harg3 arg4 harg4 arg5 harg5 arg6 harg6 arg7 harg7 hc0 hc1 x0 x1 x2 xs).2.1 S512x1024.size (by sl_kernel_rfl) y
theorem coverLastOut0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) (y : S512x1024.Idx) :
    ∃ pc ∈ (runLast0 c i arg3 harg3 arg4 harg4 arg5 harg5 arg6 harg6 arg7 harg7 hc0 hc1 x0 x1 x2 xs).1, y ∈ pc.1.set :=
  View.cover_of_tiledL (runLast0 c i arg3 harg3 arg4 harg4 arg5 harg5 arg6 harg6 arg7 harg7 hc0 hc1 x0 x1 x2 xs).1 S512x1024.size (by sl_kernel_rfl) y

section
-- the core's buffer contents when the region is entered
variable (V : (c : Dev nD) → (b : Ref sig .tc) → Buf (Elt F) ((c : Thread nD τ).loc b))

/-! ## The tiles the points read -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation tile (512 rows, 1024 of the contracted axis), the weight tile (1024 units, 1024 of the
    contracted axis) and the bias row (1024 units) of point `t`. -/
abbrev xblk0 (c : Dev nD) (t : Fin cfg0.N) : Vec F S512x1024 .f32 := iblk0 V c 0 t
abbrev wblk0 (c : Dev nD) (t : Fin cfg0.N) : Vec F S1024x1024 .f32 := iblk0 V c 1 t
abbrev bblk0 (c : Dev nD) (t : Fin cfg0.N) : Vec F S1x1024 .f32 := iblk0 V c 2 t

/-- An input's current buffer holds its tile at every point, fetched there or not: where it is not fetched its
    tile index has not moved (the bias row is fetched at step 0 and still there at step 3). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- THE ACCUMULATION.  After the point at position `n`: at step 0 the reset value plus the point's block
    product; at a later step what the point before left plus the point's block product. -/
def accAt0 (c : Dev nD) : (n : ℕ) → n < cfg0.N → Vec F S512x1024 .f32
  | 0, hn => k0_pay2 (xblk0 V c ⟨0, hn⟩) (wblk0 V c ⟨0, hn⟩) (k0_pay1 (F := F))
  | n + 1, hn =>
    if (n + 1) % 4 = 0 then k0_pay2 (xblk0 V c ⟨n + 1, hn⟩) (wblk0 V c ⟨n + 1, hn⟩) (k0_pay1 (F := F))
    else k0_pay2 (xblk0 V c ⟨n + 1, hn⟩) (wblk0 V c ⟨n + 1, hn⟩) (accAt0 c n (Nat.lt_of_succ_lt hn))

theorem accAt0_first (c : Dev nD) (t : Fin cfg0.N) (h0 : t.val % 4 = 0) :
    accAt0 V c t.val t.isLt = k0_pay2 (xblk0 V c t) (wblk0 V c t) (k0_pay1 (F := F)) := by
  obtain ⟨n, hn⟩ := t
  cases n with
  | zero => rfl
  | succ n => exact if_pos h0

theorem accAt0_next (c : Dev nD) (t : Fin cfg0.N) (h0 : ¬t.val % 4 = 0) :
    accAt0 V c t.val t.isLt = k0_pay2 (xblk0 V c t) (wblk0 V c t) (accAt0 V c (t.val - 1) (Nat.lt_of_le_of_lt (Nat.sub_le _ _) t.isLt)) := by
  obtain ⟨n, hn⟩ := t
  cases n with
  | zero => exact absurd (Nat.zero_mod _) h0
  | succ n => exact if_neg h0

/-- The output tile the body leaves at point `t`: the epilogue of the accumulator there and the bias row
    (consulted at step 3 only: elsewhere the tile is untouched and not written back). -/
def outAt0 (c : Dev nD) (t : Fin cfg0.N) : Vec F S512x1024 .bf16 := k0_pay3 (accAt0 V c t.val t.isLt) (bblk0 V c t)

/-! ## The invariant between points -/

/-- Before the point at position `n`: on entry what the region is handed; afterwards the accumulator at what
    the point before left, the other buffers and the generator register as they come. -/
def Phi0 (c : Dev nD) : (n : ℕ) → n ≤ cfg0.N → sProp 𝕄
  | 0, _ => Pipeline.ΦA spec0 c
  | n + 1, hn => iprop(iprop(owns (c : Thread nD τ) accM0 fullShare (accAt0 V c n hn) ∗ side0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) accM0 fullShare (accAt0 V c n hn) ∗ side0 c) ∗ (∃ r, prngReg c r)) := rfl

theorem Phi0_pos (c : Dev nD) (n : ℕ) (h : n ≤ cfg0.N) (hz : n ≠ 0) :
    Phi0 V c n h = iprop(iprop(owns (c : Thread nD τ) accM0 fullShare (accAt0 V c (n - 1) (by omega)) ∗ side0 c) ∗ (∃ r, prngReg c r)) := by
  cases n with
  | zero => exact absurd rfl hz
  | succ n => rfl

/-! ## The proof data -/

/-- Layer 0's proof data on core `c`: the arrays as the region finds them; after the body each input's buffer
    at its tile and the output's at `outAt0`; the invariant `Phi0`; nothing owed; full shares. -/
def dat0 (c : Dev nD) : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = xblk0 V c t :=
  before0_0_of V (dat0 V c) (A_eq0 V c 0) (after0_0 V c) t d
theorem before0_1 (c : Dev nD) (t : Fin cfg0.N) (d) : (dat0 V c).before 1 t d = wblk0 V c t :=
  before0_1_of V (dat0 V c) (A_eq0 V c 1) (after0_1 V c) t d
theorem before0_2 (c : Dev nD) (t : Fin cfg0.N) (d) : (dat0 V c).before 2 t d = bblk0 V c t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sx0 t) fullShare ((dat0 V c).before 0 t d))
    ∗ (∃ d, owns (c : Thread nD τ) (sw0 t) fullShare ((dat0 V c).before 1 t d))
    ∗ (∃ d, owns (c : Thread nD τ) (sb0 t) fullShare ((dat0 V c).before 2 t d))
    ∗ (∃ d, owns (c : Thread nD τ) (so0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (sx0 t) fullShare (xblk0 V c t) := by
  unfold Dat.leavesExact; rw [show cfg0.idle 0 (cfg0.grid.coords t) = false from rfl, after0_0]
theorem leaves0_1 (c : Dev nD) (t : Fin cfg0.N) : (dat0 V c).leavesExact 1 t = owns (c : Thread nD τ) (sw0 t) fullShare (wblk0 V c t) := by
  unfold Dat.leavesExact; rw [show cfg0.idle 1 (cfg0.grid.coords t) = false from rfl, after0_1]
theorem leaves0_2 (c : Dev nD) (t : Fin cfg0.N) : (dat0 V c).leavesExact 2 t = owns (c : Thread nD τ) (sb0 t) fullShare (bblk0 V c t) := by
  unfold Dat.leavesExact; rw [show cfg0.idle 2 (cfg0.grid.coords t) = false from rfl, after0_2]
theorem leaves0_3_idle (c : Dev nD) (t : Fin cfg0.N) (h3 : ¬t.val % 4 = 3) :
    (dat0 V c).leavesExact 3 t = iprop(∃ d, owns (c : Thread nD τ) (so0 t) fullShare ((dat0 V c).before 3 t d)) :=
  Dat.leavesExact_idle (dat0 V c) 3 t (outIdle0 t h3) (outKept0 t h3)
theorem leaves0_3_live (c : Dev nD) (t : Fin cfg0.N) (h3 : t.val % 4 = 3) :
    (dat0 V c).leavesExact 3 t = owns (c : Thread nD τ) (so0 t) fullShare (outAt0 V c t) := by
  unfold Dat.leavesExact; rw [outLive0 t h3, after0_3]

set_option maxHeartbeats 4800000 in
/-- The body at any point.  The inputs' buffers hold their tiles; the point's position modulo 4 says which of
    the three runs applies; the invariant hands over the accumulator at what the point before left (at anything
    on entry and at a step 0) and takes it back at this point's value; the output tile is handed back untouched
    except at step 3, where it is left at the epilogue. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 256 := lt_of_lt_of_eq t.isLt (show cfg0.N = 256 from N_0)
  by_cases h0 : t.val % 4 = 0
  · have h3 : ¬t.val % 4 = 3 := by omega
    rw [leaves0_3_idle V c t h3, accAt0_first V c t h0]
    by_cases hz : t.val = 0
    · rw [Phi0_castSucc V c t, Phi0_zero V c _ _ hz, PhiA0_eq]
      iintro ⟨⟨⟨HS, Hside⟩, Hg⟩, Ho, ⟨%d0, H0⟩, ⟨%d1, H1⟩, ⟨%d2, H2⟩, ⟨%d3, H3⟩⟩
      iapply ((runFirst0 c (grid0.coords t) _ _ _ _ _ _ _ _ _ _ ((firstK0_iff t).mpr h0) (fun h => h3 ((lastK0_iff t).mp h)) (xblk0 V c t) (wblk0 V c t) (bblk0 V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverFirst0 c _ _ _ _ _ _ _ _ _ _ _ _ _ _ _ _)).trans (accFirst0 c _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runFirst0 c (grid0.coords t) _ _ _ _ _ _ _ _ _ _ ((firstK0_iff t).mpr h0) (fun h => h3 ((lastK0_iff t).mp h)) (xblk0 V c t) (wblk0 V c t) (bblk0 V c t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverFirst0 c _ _ _ _ _ _ _ _ _ _ _ _ _ _ _ _)).trans (accFirst0 c _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [leaves0_3_live V c t h3]
      unfold outAt0
      rw [accAt0_next V c t h0]
      rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((firstK0_iff t).mp h)) ((lastK0_iff t).mpr h3) (xblk0 V c t) (wblk0 V c t) (bblk0 V c t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hside Hg]
      · isplitl [HS Hside]
        · isplitl [HS]
          · unfold owns; iexists _; isplitr
            swap; · iexact HS
            ipureintro; exact (View.read_writes_eq_canon _ _ _ (coverLastAcc0 c _ _ _ _ _ _ _ _ _ _ _ _ _ _ _ _ _)).trans (accLast0 c _ _ _ _ _ _ _ _ _ _ _ _ _ _ _ _ _)
          iexact Hside
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastOut0 c _ _ _ _ _ _ _ _ _ _ _ _ _ _ _ _ _)).trans (outLast0 c _ _ _ _ _ _ _ _ _ _ _ _ _ _ _ _ _)
    · rw [leaves0_3_idle V c t h3, accAt0_next V c t h0]
      rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((firstK0_iff t).mp h)) (fun h => h3 ((lastK0_iff t).mp h)) (xblk0 V c t) (wblk0 V c t) (bblk0 V c t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverMid0 c _ _ _ _ _ _ _ _ _ _ _ _ _ _ _ _ _)).trans (accMid0 c _ _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

/-- What the region is handed is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back: the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl, Phi0_pos V c _ _ ht, PhiA0_eq]
  iintro ⟨⟨HS, Hside⟩, Hg⟩
  isplitl [HS Hside]
  · isplitl [HS]
    · iexists _; iexact HS
    iexact Hside
  iexact Hg

end

end Cert.Kernel.Layers

end
-- ==== Proof.K.L1Body.lean ====
/-
  The second dense layer's tile kernel, one grid point at a time.

  The grid is (row tile i, column tile j, contraction block k), sixteen by four by four, and the
  point's number is (4 i + j) 4 + k.  A 512 x 1024 accumulator lives beside the staged windows and is
  carried from one contraction block to the next: at k = 0 it is cleared, at every k it gains the
  product of the activation block with the transposed weight block, and at k = 3 the output block is
  written as the threshold of the accumulator plus the bias row.  So a point is in one of three
  control cases, told apart by k alone:  FIRST (k = 0: the clearing guard holds, the closing guard
  does not), MIDDLE (k = 1, 2: neither holds), LAST (k = 3: the closing guard holds, the clearing
  guard does not).  This module states the two guards in closed form, says where the output window
  is idle, and runs the whole body once per case on arbitrary whole staging memrefs.
-/
import proofs.«137112_j54778012893659_1_alg».proof.Proof.Gen.Kernel.Launch
import proofs.«137112_j54778012893659_1_alg».proof.Proof.Gen.Kernel.Skeleton
import proofs.«137112_j54778012893659_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, from the grid coordinates -/

/-- The clearing guard: the contraction block index is zero. -/
abbrev clears1 (i : grid1.Coords) : Prop :=
  (Scalar.cmpi .ne (Scalar.extui (Scalar.cmpi .eq (BitVec.ofNat 32 (i 2).val) 0#32)) 0#32) = 1#1
/-- It holds exactly at the points whose number is 0 modulo 4. -/
theorem clears1_iff : ∀ t : Fin cfg1.N, clears1 (grid1.coords t) ↔ t.val % 4 = 0 :=
  (by decide +kernel : ∀ t : Fin grid1.N, clears1 (grid1.coords t) ↔ t.val % 4 = 0)

/-- The closing guard: the contraction block index is the last one, three. -/
abbrev closes1 (i : grid1.Coords) : Prop := k1_cond2 i = 1#1
/-- It holds exactly at the points whose number is 3 modulo 4. -/
theorem closes1_iff : ∀ t : Fin cfg1.N, closes1 (grid1.coords t) ↔ t.val % 4 = 3 :=
  (by decide +kernel : ∀ t : Fin grid1.N, closes1 (grid1.coords t) ↔ t.val % 4 = 3)

/-! ## Where the windows are idle -/

/-- The activation window is read at every point. -/
theorem live1_0 : ∀ t : Fin cfg1.N, cfg1.idle 0 (grid1.coords t) = false := by decide +kernel
/-- The weight window is read at every point. -/
theorem live1_1 : ∀ t : Fin cfg1.N, cfg1.idle 1 (grid1.coords t) = false := by decide +kernel
/-- The bias window is never called idle (it is read only at the closing points, and kept in between). -/
theorem live1_2 : ∀ t : Fin cfg1.N, cfg1.idle 2 (grid1.coords t) = false := by decide +kernel
/-- Away from the closing points the output window is idle: nothing is stored into it, -/
theorem idle1_3 : ∀ t : Fin cfg1.N, ¬closes1 (grid1.coords t) → cfg1.idle 3 (grid1.coords t) = true := by decide +kernel
/-- and its block is not written back there. -/
theorem noFlush1_3 : ∀ t : Fin cfg1.N, ¬closes1 (grid1.coords t) → (cfg1.win 3).flush t = false := by decide +kernel
/-- At a closing point the output window is live: the threshold block is stored into it. -/
theorem live1_3 : ∀ t : Fin cfg1.N, closes1 (grid1.coords t) → cfg1.idle 3 (grid1.coords t) = false := by decide +kernel

/-! ## The memrefs the body is called on -/

/-- Each window's current staging memref at point `t`, as the pipeline passes it, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev acc1 : Memref sig .tc .vmem S512x1024 .f32 := Memref.whole cc1_scratch0
/-- The accumulator as a view: what it holds is stated through it. -/
abbrev accV1 : View sig .tc .vmem S512x1024 .f32 := acc1.view
/-- One staging buffer of the output window, through which its contents are stated. -/
abbrev outV1 : View sig .tc .vmem S512x1024 .f32 := (Memref.whole cc1_stg3_0 : Memref sig .tc .vmem S512x1024 .f32).view

/-- The region's own state around a proposition `P` about the accumulator: the first layer's eight staging
    buffers and its accumulator, which this layer never touches, each whole at some contents; then `P`; and the
    generator register at some state. -/
def around1 (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P) ∗ (∃ r, prngReg c r))

/-- What the region is entered with beside its windows is that state with the accumulator owned at some contents. -/
theorem PhiA1_eq (c : Dev nD) :
    (Pipeline.ΦA spec1 c : sProp 𝕄) = around1 c iprop(∃ d, owns (c : Thread nD τ) acc1 fullShare d) := by
  unfold Pipeline.ΦA around1; rw [scopedRest1_eq]; simp only [acc1, owns_whole]; try rfl

/-- The accumulator's proposition can be taken out of that state and another put in its place. -/
theorem around1_swap (c : Dev nD) (P Q : sProp 𝕄) : around1 c P ⊢ iprop(P ∗ (Q -∗ around1 c Q)) := by
  unfold around1
  iintro ⟨⟨R0, R1, R2, R3, R4, R5, R6, R7, R8, HP⟩, Hg⟩
  isplitl [HP]; · iexact HP
  iintro HQ
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HQ
  iexact Hg

/-! ## The body, run once per control case -/

set_option maxHeartbeats 1000000 in
/-- THE FIRST CASE (contraction block 0: the clearing guard holds, the closing guard does not).  On whole memrefs —
    the three inputs at their blocks `x0`, `x1`, `x2`, the output window at contents `xi3` it does not touch, the
    accumulator at anything — the body runs to the continuation with the inputs and the output as they were and the
    accumulator written by the pieces `LS` (the zero block, then the zero block plus the first partial product): the
    pieces are the body's stores, last first, each guard settled by the case's hypotheses. -/
noncomputable def run1_first (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : clears1 i) (hc1 : ¬closes1 i)
    (x0 : Vec F S512x1024 .bf16) (x1 : Vec F S1024x1024 .f32) (x2 : Vec F S1x1024 .f32) :
    Σ' (L3 : List (View.Piece (Elt F) S512x1024 .f32)), { LS : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE MIDDLE CASE (contraction blocks 1 and 2: neither guard holds).  As the first case, but the accumulator is
    handed over at what the point before left, `xs`, and is written by one piece: `xs` plus this block's partial
    product.  The output window is again untouched. -/
noncomputable def run1_middle (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : ¬closes1 i)
    (x0 : Vec F S512x1024 .bf16) (x1 : Vec F S1024x1024 .f32) (x2 : Vec F S1x1024 .f32) (xs : Vec F S512x1024 .f32) :
    Σ' (L3 : List (View.Piece (Elt F) S512x1024 .f32)), { LS : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE LAST CASE (contraction block 3: the closing guard holds, the clearing guard does not).  The accumulator comes
    in at `xs` and is written by `xs` plus the last partial product; then the output window, handed over at anything,
    is written by the pieces `L3`: the threshold of that sum plus the bias row. -/
noncomputable def run1_last (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : closes1 i)
    (x0 : Vec F S512x1024 .bf16) (x1 : Vec F S1024x1024 .f32) (x2 : Vec F S1x1024 .f32) (xs : Vec F S512x1024 .f32) :
    Σ' (L3 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Layers

end
-- ==== Proof.K.L1Data.lean ====
/-
  The second dense layer as a pipeline region entered at buffer contents `V`: what each grid point
  leaves in the accumulator and in the output window, the region's invariant, and its proof data.

  The accumulator is carried along the contraction axis.  Writing t for a point's number, the point
  with t % 4 = 0 starts a tile: whatever the accumulator held, it leaves the zero block plus the
  first partial product.  A point with t % 4 = 1 or 2 adds its partial product to what the point
  before left.  The point with t % 4 = 3 does the same and then fills the output window with the
  threshold of the finished sum plus the bias row; only there is the output window written back.
  So the accumulator after point t is a function of the accumulator after point t - 1 (unless t
  starts a tile), defined here by recursion on t; the region's invariant after point t is "the
  accumulator holds exactly that".
-/
import proofs.«137112_j54778012893659_1_alg».proof.Proof.K.L1Body

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block of point `t`: rows of tile i, columns of contraction block k. -/
abbrev ablk1 (c : Dev nD) (t : Fin cfg1.N) : Vec F S512x1024 .bf16 := iblk1 V c 0 t
/-- The weight block of point `t`: rows (output units) of tile j, columns of contraction block k. -/
abbrev wblk1 (c : Dev nD) (t : Fin cfg1.N) : Vec F S1024x1024 .f32 := iblk1 V c 1 t
/-- The bias row of point `t`: the units of tile j. -/
abbrev bblk1 (c : Dev nD) (t : Fin cfg1.N) : Vec F S1x1024 .f32 := iblk1 V c 2 t

/-- An input window's current staging buffer holds its block at every point, whether the pipeline fetched it
    there or not (unfetched, the block index has not moved since the fetch): for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window is fetched only where a tile starts and read only where it ends; in between it is kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point -/

/-- Pieces stored into the accumulator, read back as one block. -/
def accOf (L : List (View.Piece (Elt F) S512x1024 .f32)) : Vec F S512x1024 .f32 :=
  accV1.read (Elt F) (accV1.writes (Elt F) accV1.junk L)
/-- Pieces stored into the output window, read back as one block. -/
def outOf (L : List (View.Piece (Elt F) S512x1024 .f32)) : Vec F S512x1024 .f32 :=
  outV1.read (Elt F) (outV1.writes (Elt F) outV1.junk L)

/-- Pieces that cover the block leave the same contents whatever view they are written through and whatever was
    there before: what the accumulator (the output window) holds after them is `accOf` (`outOf`) of the pieces. -/
theorem read_writes_accOf (v : View sig .tc .vmem S512x1024 .f32) (f : v.ty.Contents (Elt F)) (L : List (View.Piece (Elt F) S512x1024 .f32))
    (h : ∀ y, ∃ p ∈ L, y ∈ p.1.set) : v.read (Elt F) (v.writes (Elt F) f L) = accOf L :=
  View.read_writes_of_cover _ _ _ _ _ h
theorem read_writes_outOf (v : View sig .tc .vmem S512x1024 .f32) (f : v.ty.Contents (Elt F)) (L : List (View.Piece (Elt F) S512x1024 .f32))
    (h : ∀ y, ∃ p ∈ L, y ∈ p.1.set) : v.read (Elt F) (v.writes (Elt F) f L) = outOf L :=
  View.read_writes_of_cover _ _ _ _ _ h

/-- A point that starts a tile is not one that ends it. -/
theorem not_closes_of_start (t : Fin cfg1.N) (h : t.val % 4 = 0) : ¬closes1 (grid1.coords t) :=
  fun h' => by have := (closes1_iff t).mp h'; omega

/-- The first case's run at point `t`, on the point's memrefs and blocks. -/
def firstAt (c : Dev nD) (t : Fin cfg1.N) (h0 : t.val % 4 = 0) :=
  run1_first c (grid1.coords t) (ms1_0 t) (hs1_0 t) (ms1_1 t) (hs1_1 t) (ms1_2 t) (hs1_2 t) (ms1_3 t) (hs1_3 t) acc1 (Memref.isWhole_whole _)
    ((clears1_iff t).mpr h0) (not_closes_of_start t h0) (ablk1 V c t) (wblk1 V c t) (bblk1 V c t)
/-- The middle case's run at point `t`, the accumulator coming in at `xs`. -/
def middleAt (c : Dev nD) (t : Fin cfg1.N) (h0 : ¬t.val % 4 = 0) (h1 : ¬t.val % 4 = 3) (xs : Vec F S512x1024 .f32) :=
  run1_middle c (grid1.coords t) (ms1_0 t) (hs1_0 t) (ms1_1 t) (hs1_1 t) (ms1_2 t) (hs1_2 t) (ms1_3 t) (hs1_3 t) acc1 (Memref.isWhole_whole _)
    (fun h => h0 ((clears1_iff t).mp h)) (fun h => h1 ((closes1_iff t).mp h)) (ablk1 V c t) (wblk1 V c t) (bblk1 V c t) xs
/-- The last case's run at point `t`, the accumulator coming in at `xs`. -/
def lastAt (c : Dev nD) (t : Fin cfg1.N) (h0 : ¬t.val % 4 = 0) (h1 : t.val % 4 = 3) (xs : Vec F S512x1024 .f32) :=
  run1_last c (grid1.coords t) (ms1_0 t) (hs1_0 t) (ms1_1 t) (hs1_1 t) (ms1_2 t) (hs1_2 t) (ms1_3 t) (hs1_3 t) acc1 (Memref.isWhole_whole _)
    (fun h => h0 ((clears1_iff t).mp h)) ((closes1_iff t).mpr h1) (ablk1 V c t) (wblk1 V c t) (bblk1 V c t) xs

/-- Each case's accumulator pieces tile the accumulator, so they cover it; -/
theorem acc_cover_first (c : Dev nD) (t : Fin cfg1.N) (h0 : t.val % 4 = 0) (y : S512x1024.Idx) :
    ∃ pc ∈ (firstAt V c t h0).2.1, y ∈ pc.1.set :=
  View.cover_of_tiledL (firstAt V c t h0).2.1 S512x1024.size (by unfold firstAt; sl_kernel_rfl) y
theorem acc_cover_middle (c : Dev nD) (t : Fin cfg1.N) (h0 : ¬t.val % 4 = 0) (h1 : ¬t.val % 4 = 3) (xs : Vec F S512x1024 .f32) (y : S512x1024.Idx) :
    ∃ pc ∈ (middleAt V c t h0 h1 xs).2.1, y ∈ pc.1.set :=
  View.cover_of_tiledL (middleAt V c t h0 h1 xs).2.1 S512x1024.size (by unfold middleAt; sl_kernel_rfl) y
theorem acc_cover_last (c : Dev nD) (t : Fin cfg1.N) (h0 : ¬t.val % 4 = 0) (h1 : t.val % 4 = 3) (xs : Vec F S512x1024 .f32) (y : S512x1024.Idx) :
    ∃ pc ∈ (lastAt V c t h0 h1 xs).2.1, y ∈ pc.1.set :=
  View.cover_of_tiledL (lastAt V c t h0 h1 xs).2.1 S512x1024.size (by unfold lastAt; sl_kernel_rfl) y
/-- and the last case's one output piece is the whole output block. -/
theorem out_cover_last (c : Dev nD) (t : Fin cfg1.N) (h0 : ¬t.val % 4 = 0) (h1 : t.val % 4 = 3) (xs : Vec F S512x1024 .f32) (y : S512x1024.Idx) :
    ∃ pc ∈ (lastAt V c t h0 h1 xs).1, y ∈ pc.1.set :=
  View.cover_of_tiledL (lastAt V c t h0 h1 xs).1 S512x1024.size (by unfold lastAt; sl_kernel_rfl) y

/-! ## What a point leaves, from what the point before left -/

/-- What point `t` leaves in (the output window, the accumulator) when the accumulator came in at `xs`: the case
    is chosen by `t % 4`; where a tile starts `xs` is not consulted; where the output window is not stored into, its
    component is a placeholder nothing reads. -/
def step1 (c : Dev nD) (t : Fin cfg1.N) (xs : Vec F S512x1024 .f32) : Vec F S512x1024 .f32 × Vec F S512x1024 .f32 :=
  if h0 : t.val % 4 = 0 then (outOf (firstAt V c t h0).1, accOf (firstAt V c t h0).2.1)
  else if h1 : t.val % 4 = 3 then (outOf (lastAt V c t h0 h1 xs).1, accOf (lastAt V c t h0 h1 xs).2.1)
  else (outOf (middleAt V c t h0 h1 xs).1, accOf (middleAt V c t h0 h1 xs).2.1)

theorem step1_first (c : Dev nD) (t : Fin cfg1.N) (xs : Vec F S512x1024 .f32) (h0 : t.val % 4 = 0) :
    step1 V c t xs = (outOf (firstAt V c t h0).1, accOf (firstAt V c t h0).2.1) := dif_pos h0
theorem step1_last (c : Dev nD) (t : Fin cfg1.N) (xs : Vec F S512x1024 .f32) (h0 : ¬t.val % 4 = 0) (h1 : t.val % 4 = 3) :
    step1 V c t xs = (outOf (lastAt V c t h0 h1 xs).1, accOf (lastAt V c t h0 h1 xs).2.1) := (dif_neg h0).trans (dif_pos h1)
theorem step1_middle (c : Dev nD) (t : Fin cfg1.N) (xs : Vec F S512x1024 .f32) (h0 : ¬t.val % 4 = 0) (h1 : ¬t.val % 4 = 3) :
    step1 V c t xs = (outOf (middleAt V c t h0 h1 xs).1, accOf (middleAt V c t h0 h1 xs).2.1) := (dif_neg h0).trans (dif_neg h1)

/-- THE ACCUMULATION: the accumulator after the point numbered `n`, by recursion on `n`. -/
def accAt (c : Dev nD) : (n : ℕ) → n < cfg1.N → Vec F S512x1024 .f32
  | 0, hn => (step1 V c ⟨0, hn⟩ (accOf [])).2
  | n + 1, hn => (step1 V c ⟨n + 1, hn⟩ (accAt c n (Nat.lt_of_succ_lt hn))).2

/-- The accumulator as the point numbered `n` finds it: what the point before left (before the first point, a
    placeholder: that point starts a tile and does not consult it). -/
def accBefore (c : Dev nD) : (n : ℕ) → n < cfg1.N → Vec F S512x1024 .f32
  | 0, _ => accOf []
  | n + 1, hn => accAt V c n (Nat.lt_of_succ_lt hn)

/-- The accumulator after a point is that point's step from what it found. -/
theorem accAt_eq (c : Dev nD) (t : Fin cfg1.N) : accAt V c t.val t.isLt = (step1 V c t (accBefore V c t.val t.isLt)).2 := by
  obtain ⟨n, hn⟩ := t
  cases n with
  | zero => rfl
  | succ n => rfl

/-- After the first point, what a point finds is what the point before left. -/
theorem accBefore_pos (c : Dev nD) (n : ℕ) (hn : n < cfg1.N) (hz : n ≠ 0) :
    accBefore V c n hn = accAt V c (n - 1) (Nat.lt_of_le_of_lt (Nat.sub_le _ _) hn) := by
  cases n with
  | zero => exact absurd rfl hz
  | succ n => rfl

/-- The output window's staging buffer after point `t`. -/
def outAt (c : Dev nD) (t : Fin cfg1.N) : Vec F S512x1024 .f32 := (step1 V c t (accBefore V c t.val t.isLt)).1

/-! ## The region's invariant -/

/-- Before the point numbered `n`: on entry, what the launch hands the region (the accumulator at anything); later,
    the same state with the accumulator at exactly what the point before left. -/
def Phi1 (c : Dev nD) : (n : ℕ) → n ≤ cfg1.N → sProp 𝕄
  | 0, _ => Pipeline.ΦA spec1 c
  | n + 1, hn => around1 c (owns (c : Thread nD τ) acc1 fullShare (accAt V c n hn))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = around1 c (owns (c : Thread nD τ) acc1 fullShare (accAt V c n hn)) := rfl
theorem Phi1_pos (c : Dev nD) (n : ℕ) (h : n ≤ cfg1.N) (hz : n ≠ 0) :
    Phi1 V c n h = around1 c (owns (c : Thread nD τ) acc1 fullShare (accAt V c (n - 1) (by omega))) := by
  cases n with
  | zero => exact absurd rfl hz
  | succ n => rfl

/-- At any point the invariant yields the accumulator at SOME contents, and takes it back at any named contents. -/
theorem Phi1_any (c : Dev nD) (n : ℕ) (h : n ≤ cfg1.N) (Q : sProp 𝕄) :
    Phi1 V c n h ⊢ iprop((∃ d, owns (c : Thread nD τ) acc1 fullShare d) ∗ (Q -∗ around1 c Q)) := by
  cases n with
  | zero =>
    rw [Phi1_zero V c 0 h rfl, PhiA1_eq]
    exact around1_swap c _ Q
  | succ n =>
    rw [Phi1_succ]
    iintro H
    ihave H' := around1_swap c _ Q $$ H
    icases H' with ⟨HS, Hb⟩
    isplitl [HS]; · iexists _; iexact HS
    iexact Hb

/-! ## The proof data -/

/-- The region's proof data on core `c`: the arrays as the region finds them; after the body at point `t` each
    input window at its block and the output window at `outAt`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window is never idle: after the body it holds its block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
/-- Where a tile ends the output window is live: it holds what the step left. -/
theorem leaves1_3_last (c : Dev nD) (t : Fin cfg1.N) (h1 : t.val % 4 = 3) :
    (dat1 V c).leavesExact 3 t = owns (c : Thread nD τ) (ms1_3 t) fullShare (outAt V c t) := by
  unfold Dat.leavesExact; rw [live1_3 t ((closes1_iff t).mpr h1), after1_3]
/-- Elsewhere it is idle and not written back: it holds what it held. -/
theorem leaves1_3_idle (c : Dev nD) (t : Fin cfg1.N) (h1 : ¬t.val % 4 = 3) :
    (dat1 V c).leavesExact 3 t = iprop(∃ d, owns (c : Thread nD τ) (ms1_3 t) fullShare ((dat1 V c).before 3 t d)) :=
  Dat.leavesExact_idle (dat1 V c) 3 t (idle1_3 t (fun h => h1 ((closes1_iff t).mp h))) (noFlush1_3 t (fun h => h1 ((closes1_iff t).mp h)))

set_option maxHeartbeats 4800000 in
/-- The body at any point.  The inputs' memrefs hold their blocks; `t % 4` says which case the point is in, so that
    case's run applies.  The invariant hands the body the accumulator — at anything where a tile starts, else at
    what the point before left — and takes it back at what this point's step leaves (the case's pieces cover the
    accumulator, so what they leave does not depend on what was there).  The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1, leaves1_2, accAt_eq V c t]
  have hN : t.val < 256 := lt_of_lt_of_eq t.isLt (show cfg1.N = 256 from N_1)
  by_cases h0 : t.val % 4 = 0
  · -- a tile starts: the accumulator is taken at anything
    have h1 : ¬t.val % 4 = 3 := by omega
    rw [leaves1_3_idle V c t h1, step1_first V c t _ h0]; dsimp only
    iintro ⟨HΦ, Ho, ⟨%d0, H0⟩, ⟨%d1, H1⟩, ⟨%d2, H2⟩, ⟨%d3, H3⟩⟩
    ihave HΦ' := Phi1_any V c t.val _ (owns (c : Thread nD τ) acc1 fullShare (accOf (firstAt V c t h0).2.1)) $$ HΦ
    icases HΦ' with ⟨HS, Hb⟩
    iapply ((firstAt V c t h0).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hb]
    · iapply Hb
      unfold owns; iexists _; isplitr
      swap; · iexact HS
      ipureintro; exact read_writes_accOf _ _ _ (acc_cover_first V c t h0)
    isplitl [Ho]; · iexact Ho
    isplitl [H0]; · iexact H0
    isplitl [H1]; · iexact H1
    isplitl [H2]; · iexact H2
    iexists _; iexact H3
  · have hz : t.val ≠ 0 := fun h => h0 (by rw [h])
    rw [Phi1_pos V c _ _ hz, ← accBefore_pos V c t.val t.isLt hz]
    by_cases h1 : t.val % 4 = 3
    · -- a tile ends: the sum is finished and the output block stored
      rw [leaves1_3_last V c t h1]
      unfold outAt
      rw [step1_last V c t _ h0 h1]; dsimp only
      iintro ⟨HΦ, Ho, ⟨%d0, H0⟩, ⟨%d1, H1⟩, ⟨%d2, H2⟩, ⟨%d3, H3⟩⟩
      ihave HΦ' := around1_swap c _ (owns (c : Thread nD τ) acc1 fullShare (accOf (lastAt V c t h0 h1 (accBefore V c t.val t.isLt)).2.1)) $$ HΦ
      icases HΦ' with ⟨HS, Hb⟩
      iapply ((lastAt V c t h0 h1 (accBefore V c t.val t.isLt)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb]
      · iapply Hb
        unfold owns; iexists _; isplitr
        swap; · iexact HS
        ipureintro; exact read_writes_accOf _ _ _ (acc_cover_last V c t h0 h1 _)
      isplitl [Ho]; · iexact Ho
      isplitl [H0]; · iexact H0
      isplitl [H1]; · iexact H1
      isplitl [H2]; · iexact H2
      unfold owns; iexists _; isplitr
      swap; · iexact H3
      ipureintro; exact read_writes_outOf _ _ _ (out_cover_last V c t h0 h1 _)
    · -- inside a tile: one more partial product
      rw [leaves1_3_idle V c t h1, step1_middle V c t _ h0 h1]; dsimp only
      iintro ⟨HΦ, Ho, ⟨%d0, H0⟩, ⟨%d1, H1⟩, ⟨%d2, H2⟩, ⟨%d3, H3⟩⟩
      ihave HΦ' := around1_swap c _ (owns (c : Thread nD τ) acc1 fullShare (accOf (middleAt V c t h0 h1 (accBefore V c t.val t.isLt)).2.1)) $$ HΦ
      icases HΦ' with ⟨HS, Hb⟩
      iapply ((middleAt V c t h0 h1 (accBefore V c t.val t.isLt)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · iapply Hb
        unfold owns; iexists _; isplitr
        swap; · iexact HS
        ipureintro; exact read_writes_accOf _ _ _ (acc_cover_middle V c t h0 h1 _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the launch's state back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl, PhiA1_eq]
  iintro H
  ihave H' := Phi1_any V c _ _ iprop(∃ d, owns (c : Thread nD τ) acc1 fullShare d) $$ H
  icases H' with ⟨HS, Hb⟩
  iapply Hb
  iexact HS

end Cert.Kernel.Layers

end
-- ==== Proof.K.Launch.lean ====
/-
  The whole program as its two layers in sequence.

  When the first layer's region is entered the core's buffers hold the launch contents with the two
  biases reshaped to rows; when it is left, the hidden-activation array holds what the region's
  write-backs leave (the proof data's final array), everything else as entered; the second layer
  is entered from those contents and leaves the result array likewise.  Each region is entered with
  the scratch accumulator at anything, carries it at its named contents from point to point, and
  gives it back at anything.  Nothing is owed between cores and no semaphore is the kernels' own.
-/
import proofs.«137112_j54778012893659_1_alg».proof.Proof.K.L0Data
import proofs.«137112_j54778012893659_1_alg».proof.Proof.K.L1Data
import proofs.«137112_j54778012893659_1_alg».proof.Proof.Gen.Kernel.Regions
import Idealize.ShloMosaic.Lib.Pipeline.RegionsLoop

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two regions' entries -/

/-- What the first layer's region finds: the launch contents after the two bias reshapes. -/
abbrev atL0 (c : Dev nD) (b : Ref sig .tc) : Buf (Elt F) ((c : Thread nD τ).loc b) := Gen.V1 m c b

/-- The hidden activations as the first region leaves them. -/
def L1Arr (c : Dev nD) : Buf (Elt F) ((c : Thread nD τ).loc main_v2) := (dat0 (atL0 m) c).arrAt 3 cfg0.N

/-- The core's buffers after the first region: the hidden activations written, the rest as entered. -/
abbrev afterL0 (c : Dev nD) : Valuation τ sig (Elt F) := Function.update (Gen.V1 m c) main_v2 (L1Arr m c)
/-- The same read at the TensorCore's references: what the second layer's region finds. -/
abbrev atL1 (c : Dev nD) (b : Ref sig .tc) : Buf (Elt F) ((c : Thread nD τ).loc b) := afterL0 m c b

/-- The result array as the second region leaves it. -/
def L2Arr (c : Dev nD) : Buf (Elt F) ((c : Thread nD τ).loc main_v3) := (dat1 (atL1 m) c).arrAt 3 cfg1.N

/-- What the two regions leave in the arrays they write, as the family the conditional frame is stated over: only
    the hidden activations after the first region and the result after the second are ever read. -/
def outsOf : Gen.Outs (F := F) := fun _ r c =>
  Function.update (Function.update (fun r' : Ref sig .tc => (Gen.V1 m c r' : Buf (Elt F) ((c : Thread nD τ).loc r')))
    main_v2 (L1Arr m c)) main_v3 (L2Arr m c) r

theorem outsOf_v2 (J : ℕ) (c : Dev nD) : outsOf m J main_v2 c = L1Arr m c := by
  unfold outsOf
  rw [Function.update_of_ne (by decide : (main_v2 : Ref sig .tc) ≠ main_v3), Function.update_self]

theorem outsOf_v3 (J : ℕ) (c : Dev nD) : outsOf m J main_v3 c = L2Arr m c := by
  unfold outsOf
  rw [Function.update_self]

/-- After the first region the generated valuation is the one above. -/
theorem V2_eq (c : Dev nD) : Gen.V2 m (outsOf m) c = afterL0 m c := by
  unfold Gen.V2 afterL0; rw [outsOf_v2]

/-! ## The proof data of both regions, and what rides beside the buffers -/

/-- Both regions' proof data, each at its region's entry contents (a literal match on the region's number). -/
def pdats : (p : Fin 2) → (c : Dev nD) → Dat τ (Elt F) Unit ℕ (UR sig nD τ) ℕ (Pipeline.pin (pcfgs (F := F)) Gen.adm p) c
  | ⟨0, _⟩ => fun c => dat0 (atL0 m) c
  | ⟨1, _⟩ => fun c => dat1 (atL1 m) c

abbrev noVariants : Variants := Variants.none
/-- No core owes another anything: no pair is levelled. -/
abbrev noPairs : GSem nD τ sig → Finset Unit := fun _ => ∅
abbrev noLevel : GSem nD τ sig → Unit → ℕ := fun _ _ => 0

/-- Beside the buffers every segment carries the generator register at some state and the core owing nothing. -/
abbrev rest (c : Dev nD) : sProp 𝕄 :=
  iprop((∃ r, prngReg c r) ∗ ∃ W, owes (c : Thread nD τ) (0 : CellTallies nD τ sig Unit) W)

/-! ## The first layer's region as a segment -/

theorem arr0_exit (c : Dev nD) (w : Fin cfg0.W) :
    (pdats m 0 c).arrAt w cfg0.N = (fun b : Ref sig .tc => (Gen.V2 m (outsOf m) c b : Buf (Elt F) ((c : Thread nD τ).loc b))) (Pipeline.arrRef spec0 w) := by
  match w with
  | ⟨0, _⟩ => exact ((dat0 (atL0 m) c).arrAt_in 0 rfl _).trans ((A_eq0 (atL0 m) c 0).trans (Gen.V2_of m (outsOf m) c main_arg0 (by decide)).symm)
  | ⟨1, _⟩ => exact ((dat0 (atL0 m) c).arrAt_in 1 rfl _).trans ((A_eq0 (atL0 m) c 1).trans (Gen.V2_of m (outsOf m) c main_arg1 (by decide)).symm)
  | ⟨2, _⟩ => exact ((dat0 (atL0 m) c).arrAt_in 2 rfl _).trans ((A_eq0 (atL0 m) c 2).trans (Gen.V2_of m (outsOf m) c main_v0 (by decide)).symm)
  | ⟨3, _⟩ =>
    show L1Arr m c = _
    rw [V2_eq]; simp only [Function.update_self]

theorem rest0_exit (c : Dev nD) : ∀ b : Ref sig .tc, b ∉ Finset.univ.image (Pipeline.arrRef spec0) →
    (Gen.V2 m (outsOf m) c b : Buf (Elt F) ((c : Thread nD τ).loc b)) = Gen.V1 m c b := fun b hb =>
  Gen.V2_of m (outsOf m) c b (by
    intro h; apply hb; rw [List.mem_singleton] at h; subst h
    exact Finset.mem_image.mpr ⟨3, Finset.mem_univ _, rfl⟩)

set_option backward.isDefEq.respectTransparency.types false in
/-- The first layer's region: entered from every unscoped buffer at the reshaped launch contents, left with the hidden
    activations written.  Its four arrays are split out of the unscoped buffers and put back at their exit contents; the
    generator register and the scoped buffers go into the region's invariant (the scratch at anything) and come back
    (the scratch's contents forgotten). -/
def regL0 : Pipeline.RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (atL0 m) c).loose
  hwaits := Pipeline.hwaits_of_owed_zero _ _ _ _ noPairs noLevel 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (atL0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atL0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := (Pipeline.ΦA spec0 c : sProp 𝕄)) ?_ (hin0 (atL0 m) c)
    unfold Pipeline.ΦA
    iintro ⟨Hp, -, Hr⟩
    isplitl [Hr]; · iexact Hr
    iexact Hp
  hout c := by
    refine (hout0 (atL0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atL0 m c) (fun b => Gen.V2 m (outsOf m) c b) ((pdats m 0 c).arrAt · cfg0.N) (arr0_exit m c) (rest0_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second layer's region as a segment -/

theorem arr1_exit (c : Dev nD) (w : Fin cfg1.W) :
    (pdats m 1 c).arrAt w cfg1.N = (fun b : Ref sig .tc => (Gen.V3 m (outsOf m) c b : Buf (Elt F) ((c : Thread nD τ).loc b))) (Pipeline.arrRef spec1 w) := by
  match w with
  | ⟨0, _⟩ => exact ((dat1 (atL1 m) c).arrAt_in 0 rfl _).trans ((A_eq1 (atL1 m) c 0).trans
      ((congrFun (V2_eq m c) _).symm.trans (Gen.V3_of m (outsOf m) c main_v2 (by decide)).symm))
  | ⟨1, _⟩ => exact ((dat1 (atL1 m) c).arrAt_in 1 rfl _).trans ((A_eq1 (atL1 m) c 1).trans
      ((congrFun (V2_eq m c) _).symm.trans (Gen.V3_of m (outsOf m) c main_arg3 (by decide)).symm))
  | ⟨2, _⟩ => exact ((dat1 (atL1 m) c).arrAt_in 2 rfl _).trans ((A_eq1 (atL1 m) c 2).trans
      ((congrFun (V2_eq m c) _).symm.trans (Gen.V3_of m (outsOf m) c main_v1 (by decide)).symm))
  | ⟨3, _⟩ =>
    show L2Arr m c = _
    unfold Gen.V3; rw [outsOf_v3]; simp only [Function.update_self]

theorem rest1_exit (c : Dev nD) : ∀ b : Ref sig .tc, b ∉ Finset.univ.image (Pipeline.arrRef spec1) →
    (Gen.V3 m (outsOf m) c b : Buf (Elt F) ((c : Thread nD τ).loc b)) = atL1 m c b := fun b hb =>
  (Gen.V3_of m (outsOf m) c b (by
    intro h; apply hb; rw [List.mem_singleton] at h; subst h
    exact Finset.mem_image.mpr ⟨3, Finset.mem_univ _, rfl⟩)).trans (congrFun (V2_eq m c) _)

set_option backward.isDefEq.respectTransparency.types false in
/-- The second layer's region: entered from the contents the first left, left with the result array written. -/
def regL1 : Pipeline.RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (atL1 m) c).loose
  hwaits := Pipeline.hwaits_of_owed_zero _ _ _ _ noPairs noLevel 1 fun _ _ => rfl
  pre c := iprop(StableHlo.held (c : Thread nD τ) (Pipeline.ucRefs τ sig) (afterL0 m c) ∗ rest c)
  post c := iprop(StableHlo.held (c : Thread nD τ) (Pipeline.ucRefs τ sig) (Gen.V3 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (atL1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atL1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := (Pipeline.ΦA spec1 c : sProp 𝕄)) ?_ (hin1 (atL1 m) c)
    unfold Pipeline.ΦA
    iintro ⟨Hp, -, Hr⟩
    isplitl [Hr]; · iexact Hr
    iexact Hp
  hout c := by
    refine (hout1 (atL1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atL1 m c) (fun b => Gen.V3 m (outsOf m) c b) ((pdats m 1 c).arrAt · cfg1.N) (arr1_exit m c) (rest1_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
/-- From any memory with zero counters every weakly fair execution of the program terminates, faulting nowhere; the
    result array ends at what the second region's write-backs leave and every argument array as launched. -/
theorem run_both : θ_run defs (onTc (τ := τ) (main (F := F))) ⟨m, fun _ => 0, ρ⟩ (fun r => ∀ c : Dev nD,
      r.2.mem ((c.tc : Thread nD τ).loc main_v3) = L2Arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ noVariants noPairs noLevel m ρ main
    (Gen.segs m noVariants noPairs noLevel (fun _ c => rest c) () (pdats m) (regL0 m) (regL1 m))
    (fun c Q => by
      rewrite [main_chain c, Pipeline.Seg.run_eq_chain,
        show (Gen.segs m noVariants noPairs noLevel (fun _ c => rest c) () (pdats m) (regL0 m) (regL1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V3 m (outsOf m) c))
    (hch := fun c => ⟨.rfl, .rfl, Entails.of_eq (by
      show iprop(StableHlo.held (c : Thread nD τ) (Pipeline.ucRefs τ sig) (Gen.V2 m (outsOf m) c) ∗ rest c)
        = iprop(StableHlo.held (c : Thread nD τ) (Pipeline.ucRefs τ sig) (afterL0 m c) ∗ rest c)
      rw [V2_eq]), sep_mono .rfl (by iintro ⟨-, H⟩; iexact H)⟩)
    (hinit := ?_)
    (QY := fun c s => s.mem ((c.tc : Thread nD τ).loc main_v3) = L2Arr m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest is the register and nothing owed
    refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V3 m (outsOf m) c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans
          ((Function.update_self ..).trans (outsOf_v3 m 3 c)),
        (h (Proc.devRef .tc main_arg0) (Finset.mem_filter.mpr ⟨StableHlo.devRef_mem_tcRefs main_arg0, by decide⟩)).trans (Gen.V3_main_arg0 m (outsOf m) c),
        (h (Proc.devRef .tc main_arg1) (Finset.mem_filter.mpr ⟨StableHlo.devRef_mem_tcRefs main_arg1, by decide⟩)).trans (Gen.V3_main_arg1 m (outsOf m) c),
        (h (Proc.devRef .tc main_arg2) (Finset.mem_filter.mpr ⟨StableHlo.devRef_mem_tcRefs main_arg2, by decide⟩)).trans (Gen.V3_main_arg2 m (outsOf m) c),
        (h (Proc.devRef .tc main_arg3) (Finset.mem_filter.mpr ⟨StableHlo.devRef_mem_tcRefs main_arg3, by decide⟩)).trans (Gen.V3_main_arg3 m (outsOf m) c),
        (h (Proc.devRef .tc main_arg4) (Finset.mem_filter.mpr ⟨StableHlo.devRef_mem_tcRefs main_arg4, by decide⟩)).trans (Gen.V3_main_arg4 m (outsOf m) c)⟩
    · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_both m ρ)

end Cert.Kernel.Layers

end
-- ==== Proof.KI.L0Body.lean ====
/-
  Layer 0 (the first dense layer with its clamp at zero), one grid point at a time.

  The grid is 16 x 4 x 4: a row tile, a column tile, and a step along the contracted axis.  A point's
  behaviour depends only on that last coordinate: at step 0 the accumulator is reset and receives the first
  block product; at steps 1 and 2 it receives one more block product; at step 3 it receives the last one and
  the output tile becomes the clamp of (accumulator + bias row).  This module fixes those three behaviours:
  which points are which, where the output tile is untouched, and the body's run in each of the three.
-/
import proofs.«137112_j54778012893659_1_alg».proof.Proof.Gen.KernelIdeal.Launch
import proofs.«137112_j54778012893659_1_alg».proof.Proof.Gen.KernelIdeal.Skeleton
import proofs.«137112_j54778012893659_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which step along the contracted axis a point is at -/

/-- The point is at step 0 of the contracted axis: the accumulator is reset there. -/
abbrev firstK0 (i : grid0.Coords) : Prop := (Scalar.cmpi .ne (Scalar.extui (Scalar.cmpi .eq (BitVec.ofNat 32 (i 2).val) 0#32)) 0#32) = 1#1
/-- Step 0 is every fourth point, starting with the first. -/
theorem firstK0_iff : ∀ t : Fin cfg0.N, firstK0 (grid0.coords t) ↔ t.val % 4 = 0 :=
  (by decide +kernel : ∀ t : Fin grid0.N, firstK0 (grid0.coords t) ↔ t.val % 4 = 0)

/-- The point is at the last step (3) of the contracted axis: the output tile is produced there. -/
abbrev lastK0 (i : grid0.Coords) : Prop := k0_cond2 i = 1#1
/-- The last step is every fourth point, starting with the fourth. -/
theorem lastK0_iff : ∀ t : Fin cfg0.N, lastK0 (grid0.coords t) ↔ t.val % 4 = 3 :=
  (by decide +kernel : ∀ t : Fin grid0.N, lastK0 (grid0.coords t) ↔ t.val % 4 = 3)

/-! ## Where the output tile is untouched -/

/-- Away from the last step the output tile is neither stored into nor written back. -/
theorem outIdle0 : ∀ t : Fin cfg0.N, ¬ t.val % 4 = 3 → cfg0.idle 3 (grid0.coords t) = true :=
  (by decide +kernel : ∀ t : Fin grid0.N, ¬ t.val % 4 = 3 → idle0 3 (grid0.coords t) = true)
theorem outKept0 (t : Fin cfg0.N) (h : ¬ t.val % 4 = 3) : (cfg0.win 3).flush t = false :=
  Bool.eq_false_iff.mpr fun hf => h ((flush0_3 t).mp hf)
/-- At the last step it is stored into. -/
theorem outLive0 : ∀ t : Fin cfg0.N, t.val % 4 = 3 → cfg0.idle 3 (grid0.coords t) = false :=
  (by decide +kernel : ∀ t : Fin grid0.N, t.val % 4 = 3 → idle0 3 (grid0.coords t) = false)

/-! ## The memrefs the body is called with -/

/-- The activation tile's, the weight tile's, the bias row's and the output tile's current buffer at point `t`. -/
abbrev sx0 (t : Fin cfg0.N) : Memref sig .tc .vmem S512x1024 .f32 := win0_0.stage (cfg0.slots t 0)
abbrev hsx0 (t : Fin cfg0.N) : (sx0 t).IsWhole := hstage0_0 ((cfg0.slots t 0).cast nbuf0_0)
abbrev sw0 (t : Fin cfg0.N) : Memref sig .tc .vmem S1024x1024 .f32 := win0_1.stage (cfg0.slots t 1)
abbrev hsw0 (t : Fin cfg0.N) : (sw0 t).IsWhole := hstage0_1 ((cfg0.slots t 1).cast nbuf0_1)
abbrev sb0 (t : Fin cfg0.N) : Memref sig .tc .vmem S1x1024 .f32 := win0_2.stage (cfg0.slots t 2)
abbrev hsb0 (t : Fin cfg0.N) : (sb0 t).IsWhole := hstage0_2 ((cfg0.slots t 2).cast nbuf0_2)
abbrev so0 (t : Fin cfg0.N) : Memref sig .tc .vmem S512x1024 .bf16 := win0_3.stage (cfg0.slots t 3)
abbrev hso0 (t : Fin cfg0.N) : (so0 t).IsWhole := hstage0_3 ((cfg0.slots t 3).cast nbuf0_3)
/-- The accumulator: a whole buffer of the kernel's own, carried from point to point. -/
abbrev accM0 : Memref sig .tc .vmem S512x1024 .f32 := Memref.whole cc0_scratch0
abbrev accV0 : View sig .tc .vmem S512x1024 .f32 := accM0.view
/-- One buffer of the output tile, through which its contents are stated. -/
abbrev outV0 : View sig .tc .vmem S512x1024 .bf16 := (Memref.whole cc0_stg3_0 : Memref sig .tc .vmem S512x1024 .bf16).view

/-! ## The region's invariant, opened at the accumulator -/

/-- Every buffer the region may use and need not describe, other than the accumulator: the other layer's buffers. -/
def side0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region is entered with: the accumulator at anything, the other buffers, the generator register. -/
theorem PhiA0_eq (c : Dev nD) :
    (Pipeline.ΦA spec0 c : sProp 𝕄)
      = iprop(iprop((∃ d, owns (c : Thread nD τ) accM0 fullShare d) ∗ side0 c) ∗ (∃ r, prngReg c r)) := by
  unfold Pipeline.ΦA side0; rw [scopedRest0_eq]; simp only [accM0, owns_whole]; try rfl

/-! ## The body's run at each of the three kinds of point -/

set_option maxHeartbeats 1000000 in
/-- STEP 0.  On whole buffers — the three inputs at their contents, the output tile at contents handed back
    untouched, the accumulator at anything — the body runs and leaves the accumulator with the pieces found
    here: the reset, then the first block product added. -/
noncomputable def runFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) :
    { LS : List (View.Piece (Elt F) S512x1024 .f32) //
      ∀ (xo : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun xo E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- STEPS 1 AND 2.  The same, the accumulator at what the point before left: one more block product added. -/
noncomputable def runMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) :
    { LS : List (View.Piece (Elt F) S512x1024 .f32) //
      ∀ (xo : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, fun xo E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- STEP 3.  The accumulator at what the point before left, the output tile at anything: the last block product
    is added, and the output tile is stored with the pieces found here (the clamp of accumulator plus bias). -/
noncomputable def runLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Layers

end
-- ==== Proof.KI.L0Data.lean ====
/-
  Layer 0 as a pipeline's proof data, at the buffer contents `V` the region is entered with.

  Per row tile and column tile the accumulator runs through the four steps of the contracted axis: after
  step 0 it holds the reset value plus the first block product, after each later step the previous contents
  plus that step's block product.  The output tile is produced at step 3 only: the clamp of (accumulator +
  bias row).  This module states the accumulator after every point (`accAt0`), the invariant that carries it
  from one point to the next, and proves that the body, at every point, takes the one to the other.
-/
import proofs.«137112_j54778012893659_1_alg».proof.Proof.KI.L0Body
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-tile access are zero. -/
theorem zz0 : (![0, 0] : Fin 2 → Nat) = fun _ => 0 := funext fun a => by fin_cases a <;> rfl

/-! ## What the three runs leave, as values -/

/-- Step 0 leaves the accumulator at the first block product added to the reset value. -/
theorem accFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) :
    View.canon (runFirst0 c i arg3 harg3 arg4 harg4 arg5 harg5 arg6 harg6 arg7 harg7 hc0 hc1 x0 x1 x2).1 = k0_pay2 x0 x1 (k0_pay1 (F := F)) := by
  unfold runFirst0
  dsimp only
  sl_unfold_words
  rw [View.canon_cons_unit_zero (S := S512x1024) zz0]
  simp only [View.readAt_eq_ld, harg3.read_unread, harg4.read_unread, View.ld_unit_zero (S := S512x1024) zz0, View.ld_unit_zero (S := S1024x1024) zz0, View.readCov_unit_zero (S := S512x1024) _ zz0]

/-- Steps 1 and 2 leave it at one more block product added to what it held. -/
theorem accMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) :
    View.canon (runMid0 c i arg3 harg3 arg4 harg4 arg5 harg5 arg6 harg6 arg7 harg7 hc0 hc1 x0 x1 x2 xs).1 = k0_pay2 x0 x1 xs := by
  unfold runMid0
  dsimp only
  sl_unfold_words
  rw [View.canon_unit_zero (S := S512x1024) zz0]
  simp only [View.readAt_eq_ld, harg3.read_unread, harg4.read_unread, harg7.read_unread, View.ld_unit_zero (S := S512x1024) zz0, View.ld_unit_zero (S := S1024x1024) zz0]

/-- Step 3 likewise, -/
theorem accLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    View.canon (runLast0 c i arg3 harg3 arg4 harg4 arg5 harg5 arg6 harg6 arg7 harg7 hc0 hc1 x0 x1 x2 xs).2.1 = k0_pay2 x0 x1 xs := by
  unfold runLast0
  dsimp only
  sl_unfold_words
  rw [View.canon_unit_zero (S := S512x1024) zz0]
  simp only [View.readAt_eq_ld, harg3.read_unread, harg4.read_unread, harg7.read_unread, View.ld_unit_zero (S := S512x1024) zz0, View.ld_unit_zero (S := S1024x1024) zz0]

/-- and leaves the output tile at the epilogue of that accumulator and the bias row. -/
theorem outLast0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) :
    View.canon (runLast0 c i arg3 harg3 arg4 harg4 arg5 harg5 arg6 harg6 arg7 harg7 hc0 hc1 x0 x1 x2 xs).1 = k0_pay3 (k0_pay2 x0 x1 xs) x2 := by
  unfold runLast0
  dsimp only
  sl_unfold_words
  rw [View.canon_unit_zero (S := S512x1024) zz0]
  simp only [View.readAt_eq_ld, harg3.read_unread, harg4.read_unread, harg5.read_unread, harg7.read_unread, View.ld_unit_zero (S := S512x1024) zz0, View.ld_unit_zero (S := S1024x1024) zz0, View.ld_unit_zero (S := S1x1024) zz0, View.readCov_unit_zero (S := S512x1024) _ zz0]

/-! ## The runs' stores cover the buffers they write -/

theorem coverFirst0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : firstK0 i) (hc1 : ¬lastK0 i)
    (x0 : Vec F S512x1024 .f32) (x1 : Vec F S1024x1024 .f32) (x2 : Vec F S1x1024 .f32) (y : S512x1024.Idx) :
    ∃ pc ∈ (runFirst0 c i arg3 harg3 arg4 harg4 arg5 harg5 arg6 harg6 arg7 harg7 hc0 hc1 x0 x1 x2).1, y ∈ pc.1.set :=
  View.cover_of_tiledL (runFirst0 c i arg3 harg3 arg4 harg4 arg5 harg5 arg6 harg6 arg7 harg7 hc0 hc1 x0 x1 x2).1 S512x1024.size (by sl_kernel_rfl) y
theorem coverMid0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : ¬lastK0 i)
    (x0 : Vec F S512x1024 .f32) (x1 : Vec F S1024x1024 .f32) (x2 : Vec F S1x1024 .f32) (xs : Vec F S512x1024 .f32) (y : S512x1024.Idx) :
    ∃ pc ∈ (runMid0 c i arg3 harg3 arg4 harg4 arg5 harg5 arg6 harg6 arg7 harg7 hc0 hc1 x0 x1 x2 xs).1, y ∈ pc.1.set :=
  View.cover_of_tiledL (runMid0 c i arg3 harg3 arg4 harg4 arg5 harg5 arg6 harg6 arg7 harg7 hc0 hc1 x0 x1 x2 xs).1 S512x1024.size (by sl_kernel_rfl) y
theorem coverLastAcc0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) (y : S512x1024.Idx) :
    ∃ pc ∈ (runLast0 c i arg3 harg3 arg4 harg4 arg5 harg5 arg6 harg6 arg7 harg7 hc0 hc1 x0 x1 x2 xs).2.1, y ∈ pc.1.set :=
  View.cover_of_tiledL (runLast0 c i arg3 harg3 arg4 harg4 arg5 harg5 arg6 harg6 arg7 harg7 hc0 hc1 x0 x1 x2 xs).2.1 S512x1024.size (by sl_kernel_rfl) y
theorem coverLastOut0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬firstK0 i) (hc1 : lastK0 i)
    (x0 : Vec F S512x1024 .f32) (x1 : Vec F S1024x1024 .f32) (x2 : Vec F S1x1024 .f32) (xs : Vec F S512x1024 .f32) (y : S512x1024.Idx) :
    ∃ pc ∈ (runLast0 c i arg3 harg3 arg4 harg4 arg5 harg5 arg6 harg6 arg7 harg7 hc0 hc1 x0 x1 x2 xs).1, y ∈ pc.1.set :=
  View.cover_of_tiledL (runLast0 c i arg3 harg3 arg4 harg4 arg5 harg5 arg6 harg6 arg7 harg7 hc0 hc1 x0 x1 x2 xs).1 S512x1024.size (by sl_kernel_rfl) y

section
-- the core's buffer contents when the region is entered
variable (V : (c : Dev nD) → (b : Ref sig .tc) → Buf (Elt F) ((c : Thread nD τ).loc b))

/-! ## The tiles the points read -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation tile (512 rows, 1024 of the contracted axis), the weight tile (1024 units, 1024 of the
    contracted axis) and the bias row (1024 units) of point `t`. -/
abbrev xblk0 (c : Dev nD) (t : Fin cfg0.N) : Vec F S512x1024 .f32 := iblk0 V c 0 t
abbrev wblk0 (c : Dev nD) (t : Fin cfg0.N) : Vec F S1024x1024 .f32 := iblk0 V c 1 t
abbrev bblk0 (c : Dev nD) (t : Fin cfg0.N) : Vec F S1x1024 .f32 := iblk0 V c 2 t

/-- An input's current buffer holds its tile at every point, fetched there or not: where it is not fetched its
    tile index has not moved (the bias row is fetched at step 0 and still there at step 3). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- THE ACCUMULATION.  After the point at position `n`: at step 0 the reset value plus the point's block
    product; at a later step what the point before left plus the point's block product. -/
def accAt0 (c : Dev nD) : (n : ℕ) → n < cfg0.N → Vec F S512x1024 .f32
  | 0, hn => k0_pay2 (xblk0 V c ⟨0, hn⟩) (wblk0 V c ⟨0, hn⟩) (k0_pay1 (F := F))
  | n + 1, hn =>
    if (n + 1) % 4 = 0 then k0_pay2 (xblk0 V c ⟨n + 1, hn⟩) (wblk0 V c ⟨n + 1, hn⟩) (k0_pay1 (F := F))
    else k0_pay2 (xblk0 V c ⟨n + 1, hn⟩) (wblk0 V c ⟨n + 1, hn⟩) (accAt0 c n (Nat.lt_of_succ_lt hn))

theorem accAt0_first (c : Dev nD) (t : Fin cfg0.N) (h0 : t.val % 4 = 0) :
    accAt0 V c t.val t.isLt = k0_pay2 (xblk0 V c t) (wblk0 V c t) (k0_pay1 (F := F)) := by
  obtain ⟨n, hn⟩ := t
  cases n with
  | zero => rfl
  | succ n => exact if_pos h0

theorem accAt0_next (c : Dev nD) (t : Fin cfg0.N) (h0 : ¬t.val % 4 = 0) :
    accAt0 V c t.val t.isLt = k0_pay2 (xblk0 V c t) (wblk0 V c t) (accAt0 V c (t.val - 1) (Nat.lt_of_le_of_lt (Nat.sub_le _ _) t.isLt)) := by
  obtain ⟨n, hn⟩ := t
  cases n with
  | zero => exact absurd (Nat.zero_mod _) h0
  | succ n => exact if_neg h0

/-- The output tile the body leaves at point `t`: the epilogue of the accumulator there and the bias row
    (consulted at step 3 only: elsewhere the tile is untouched and not written back). -/
def outAt0 (c : Dev nD) (t : Fin cfg0.N) : Vec F S512x1024 .bf16 := k0_pay3 (accAt0 V c t.val t.isLt) (bblk0 V c t)

/-! ## The invariant between points -/

/-- Before the point at position `n`: on entry what the region is handed; afterwards the accumulator at what
    the point before left, the other buffers and the generator register as they come. -/
def Phi0 (c : Dev nD) : (n : ℕ) → n ≤ cfg0.N → sProp 𝕄
  | 0, _ => Pipeline.ΦA spec0 c
  | n + 1, hn => iprop(iprop(owns (c : Thread nD τ) accM0 fullShare (accAt0 V c n hn) ∗ side0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) accM0 fullShare (accAt0 V c n hn) ∗ side0 c) ∗ (∃ r, prngReg c r)) := rfl

theorem Phi0_pos (c : Dev nD) (n : ℕ) (h : n ≤ cfg0.N) (hz : n ≠ 0) :
    Phi0 V c n h = iprop(iprop(owns (c : Thread nD τ) accM0 fullShare (accAt0 V c (n - 1) (by omega)) ∗ side0 c) ∗ (∃ r, prngReg c r)) := by
  cases n with
  | zero => exact absurd rfl hz
  | succ n => rfl

/-! ## The proof data -/

/-- Layer 0's proof data on core `c`: the arrays as the region finds them; after the body each input's buffer
    at its tile and the output's at `outAt0`; the invariant `Phi0`; nothing owed; full shares. -/
def dat0 (c : Dev nD) : Pipeline.Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = xblk0 V c t :=
  before0_0_of V (dat0 V c) (A_eq0 V c 0) (after0_0 V c) t d
theorem before0_1 (c : Dev nD) (t : Fin cfg0.N) (d) : (dat0 V c).before 1 t d = wblk0 V c t :=
  before0_1_of V (dat0 V c) (A_eq0 V c 1) (after0_1 V c) t d
theorem before0_2 (c : Dev nD) (t : Fin cfg0.N) (d) : (dat0 V c).before 2 t d = bblk0 V c t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sx0 t) fullShare ((dat0 V c).before 0 t d))
    ∗ (∃ d, owns (c : Thread nD τ) (sw0 t) fullShare ((dat0 V c).before 1 t d))
    ∗ (∃ d, owns (c : Thread nD τ) (sb0 t) fullShare ((dat0 V c).before 2 t d))
    ∗ (∃ d, owns (c : Thread nD τ) (so0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (sx0 t) fullShare (xblk0 V c t) := by
  unfold Dat.leavesExact; rw [show cfg0.idle 0 (cfg0.grid.coords t) = false from rfl, after0_0]
theorem leaves0_1 (c : Dev nD) (t : Fin cfg0.N) : (dat0 V c).leavesExact 1 t = owns (c : Thread nD τ) (sw0 t) fullShare (wblk0 V c t) := by
  unfold Dat.leavesExact; rw [show cfg0.idle 1 (cfg0.grid.coords t) = false from rfl, after0_1]
theorem leaves0_2 (c : Dev nD) (t : Fin cfg0.N) : (dat0 V c).leavesExact 2 t = owns (c : Thread nD τ) (sb0 t) fullShare (bblk0 V c t) := by
  unfold Dat.leavesExact; rw [show cfg0.idle 2 (cfg0.grid.coords t) = false from rfl, after0_2]
theorem leaves0_3_idle (c : Dev nD) (t : Fin cfg0.N) (h3 : ¬t.val % 4 = 3) :
    (dat0 V c).leavesExact 3 t = iprop(∃ d, owns (c : Thread nD τ) (so0 t) fullShare ((dat0 V c).before 3 t d)) :=
  Dat.leavesExact_idle (dat0 V c) 3 t (outIdle0 t h3) (outKept0 t h3)
theorem leaves0_3_live (c : Dev nD) (t : Fin cfg0.N) (h3 : t.val % 4 = 3) :
    (dat0 V c).leavesExact 3 t = owns (c : Thread nD τ) (so0 t) fullShare (outAt0 V c t) := by
  unfold Dat.leavesExact; rw [outLive0 t h3, after0_3]

set_option maxHeartbeats 4800000 in
/-- The body at any point.  The inputs' buffers hold their tiles; the point's position modulo 4 says which of
    the three runs applies; the invariant hands over the accumulator at what the point before left (at anything
    on entry and at a step 0) and takes it back at this point's value; the output tile is handed back untouched
    except at step 3, where it is left at the epilogue. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 256 := lt_of_lt_of_eq t.isLt (show cfg0.N = 256 from N_0)
  by_cases h0 : t.val % 4 = 0
  · have h3 : ¬t.val % 4 = 3 := by omega
    rw [leaves0_3_idle V c t h3, accAt0_first V c t h0]
    by_cases hz : t.val = 0
    · rw [Phi0_castSucc V c t, Phi0_zero V c _ _ hz, PhiA0_eq]
      iintro ⟨⟨⟨HS, Hside⟩, Hg⟩, Ho, ⟨%d0, H0⟩, ⟨%d1, H1⟩, ⟨%d2, H2⟩, ⟨%d3, H3⟩⟩
      iapply ((runFirst0 c (grid0.coords t) _ _ _ _ _ _ _ _ _ _ ((firstK0_iff t).mpr h0) (fun h => h3 ((lastK0_iff t).mp h)) (xblk0 V c t) (wblk0 V c t) (bblk0 V c t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverFirst0 c _ _ _ _ _ _ _ _ _ _ _ _ _ _ _ _)).trans (accFirst0 c _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runFirst0 c (grid0.coords t) _ _ _ _ _ _ _ _ _ _ ((firstK0_iff t).mpr h0) (fun h => h3 ((lastK0_iff t).mp h)) (xblk0 V c t) (wblk0 V c t) (bblk0 V c t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverFirst0 c _ _ _ _ _ _ _ _ _ _ _ _ _ _ _ _)).trans (accFirst0 c _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [leaves0_3_live V c t h3]
      unfold outAt0
      rw [accAt0_next V c t h0]
      rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((firstK0_iff t).mp h)) ((lastK0_iff t).mpr h3) (xblk0 V c t) (wblk0 V c t) (bblk0 V c t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hside Hg]
      · isplitl [HS Hside]
        · isplitl [HS]
          · unfold owns; iexists _; isplitr
            swap; · iexact HS
            ipureintro; exact (View.read_writes_eq_canon _ _ _ (coverLastAcc0 c _ _ _ _ _ _ _ _ _ _ _ _ _ _ _ _ _)).trans (accLast0 c _ _ _ _ _ _ _ _ _ _ _ _ _ _ _ _ _)
          iexact Hside
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (coverLastOut0 c _ _ _ _ _ _ _ _ _ _ _ _ _ _ _ _ _)).trans (outLast0 c _ _ _ _ _ _ _ _ _ _ _ _ _ _ _ _ _)
    · rw [leaves0_3_idle V c t h3, accAt0_next V c t h0]
      rw [Phi0_castSucc V c t, Phi0_pos V c _ _ hz]
      iintro ⟨⟨⟨HS, Hside⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((firstK0_iff t).mp h)) (fun h => h3 ((lastK0_iff t).mp h)) (xblk0 V c t) (wblk0 V c t) (bblk0 V c t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hside Hg]
      · isplitl [HS Hside]
        · isplitl [HS]
          · unfold owns; iexists _; isplitr
            swap; · iexact HS
            ipureintro; exact (View.read_writes_eq_canon _ _ _ (coverMid0 c _ _ _ _ _ _ _ _ _ _ _ _ _ _ _ _ _)).trans (accMid0 c _ _ _ _ _ _ _ _ _ _ _ _ _ _ _ _ _)
          iexact Hside
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : Pipeline.BodyObligation (dat0 (F := F) V c) (defs₀ (F := F)) Variants.none () Set.univ := fun t => by
  rw [bigSep_W0, bigSep_W0]
  exact sound_body0 V c t

/-- What the region is handed is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back: the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl, Phi0_pos V c _ _ ht, PhiA0_eq]
  iintro ⟨⟨HS, Hside⟩, Hg⟩
  isplitl [HS Hside]
  · isplitl [HS]
    · iexists _; iexact HS
    iexact Hside
  iexact Hg

end

end Cert.KernelIdeal.Layers

end
-- ==== Proof.KI.L1Body.lean ====
/-
  The second dense layer's tile kernel, one grid point at a time.

  The grid is (row tile i, column tile j, contraction block k), sixteen by four by four, and the
  point's number is (4 i + j) 4 + k.  A 512 x 1024 accumulator lives beside the staged windows and is
  carried from one contraction block to the next: at k = 0 it is cleared, at every k it gains the
  product of the activation block with the transposed weight block, and at k = 3 the output block is
  written as the threshold of the accumulator plus the bias row.  So a point is in one of three
  control cases, told apart by k alone:  FIRST (k = 0: the clearing guard holds, the closing guard
  does not), MIDDLE (k = 1, 2: neither holds), LAST (k = 3: the closing guard holds, the clearing
  guard does not).  This module states the two guards in closed form, says where the output window
  is idle, and runs the whole body once per case on arbitrary whole staging memrefs.
-/
import proofs.«137112_j54778012893659_1_alg».proof.Proof.Gen.KernelIdeal.Launch
import proofs.«137112_j54778012893659_1_alg».proof.Proof.Gen.KernelIdeal.Skeleton
import proofs.«137112_j54778012893659_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, from the grid coordinates -/

/-- The clearing guard: the contraction block index is zero. -/
abbrev clears1 (i : grid1.Coords) : Prop :=
  (Scalar.cmpi .ne (Scalar.extui (Scalar.cmpi .eq (BitVec.ofNat 32 (i 2).val) 0#32)) 0#32) = 1#1
/-- It holds exactly at the points whose number is 0 modulo 4. -/
theorem clears1_iff : ∀ t : Fin cfg1.N, clears1 (grid1.coords t) ↔ t.val % 4 = 0 :=
  (by decide +kernel : ∀ t : Fin grid1.N, clears1 (grid1.coords t) ↔ t.val % 4 = 0)

/-- The closing guard: the contraction block index is the last one, three. -/
abbrev closes1 (i : grid1.Coords) : Prop := k1_cond2 i = 1#1
/-- It holds exactly at the points whose number is 3 modulo 4. -/
theorem closes1_iff : ∀ t : Fin cfg1.N, closes1 (grid1.coords t) ↔ t.val % 4 = 3 :=
  (by decide +kernel : ∀ t : Fin grid1.N, closes1 (grid1.coords t) ↔ t.val % 4 = 3)

/-! ## Where the windows are idle -/

/-- The activation window is read at every point. -/
theorem live1_0 : ∀ t : Fin cfg1.N, cfg1.idle 0 (grid1.coords t) = false := by decide +kernel
/-- The weight window is read at every point. -/
theorem live1_1 : ∀ t : Fin cfg1.N, cfg1.idle 1 (grid1.coords t) = false := by decide +kernel
/-- The bias window is never called idle (it is read only at the closing points, and kept in between). -/
theorem live1_2 : ∀ t : Fin cfg1.N, cfg1.idle 2 (grid1.coords t) = false := by decide +kernel
/-- Away from the closing points the output window is idle: nothing is stored into it, -/
theorem idle1_3 : ∀ t : Fin cfg1.N, ¬closes1 (grid1.coords t) → cfg1.idle 3 (grid1.coords t) = true := by decide +kernel
/-- and its block is not written back there. -/
theorem noFlush1_3 : ∀ t : Fin cfg1.N, ¬closes1 (grid1.coords t) → (cfg1.win 3).flush t = false := by decide +kernel
/-- At a closing point the output window is live: the threshold block is stored into it. -/
theorem live1_3 : ∀ t : Fin cfg1.N, closes1 (grid1.coords t) → cfg1.idle 3 (grid1.coords t) = false := by decide +kernel

/-! ## The memrefs the body is called on -/

/-- Each window's current staging memref at point `t`, as the pipeline passes it, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev acc1 : Memref sig .tc .vmem S512x1024 .f32 := Memref.whole cc1_scratch0
/-- The accumulator as a view: what it holds is stated through it. -/
abbrev accV1 : View sig .tc .vmem S512x1024 .f32 := acc1.view
/-- One staging buffer of the output window, through which its contents are stated. -/
abbrev outV1 : View sig .tc .vmem S512x1024 .f32 := (Memref.whole cc1_stg3_0 : Memref sig .tc .vmem S512x1024 .f32).view

/-- The region's own state around a proposition `P` about the accumulator: the first layer's eight staging
    buffers and its accumulator, which this layer never touches, each whole at some contents; then `P`; and the
    generator register at some state. -/
def around1 (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P) ∗ (∃ r, prngReg c r))

/-- What the region is entered with beside its windows is that state with the accumulator owned at some contents. -/
theorem PhiA1_eq (c : Dev nD) :
    (Pipeline.ΦA spec1 c : sProp 𝕄) = around1 c iprop(∃ d, owns (c : Thread nD τ) acc1 fullShare d) := by
  unfold Pipeline.ΦA around1; rw [scopedRest1_eq]; simp only [acc1, owns_whole]; try rfl

/-- The accumulator's proposition can be taken out of that state and another put in its place. -/
theorem around1_swap (c : Dev nD) (P Q : sProp 𝕄) : around1 c P ⊢ iprop(P ∗ (Q -∗ around1 c Q)) := by
  unfold around1
  iintro ⟨⟨R0, R1, R2, R3, R4, R5, R6, R7, R8, HP⟩, Hg⟩
  isplitl [HP]; · iexact HP
  iintro HQ
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HQ
  iexact Hg

/-! ## The body, run once per control case -/

set_option maxHeartbeats 1000000 in
/-- THE FIRST CASE (contraction block 0: the clearing guard holds, the closing guard does not).  On whole memrefs —
    the three inputs at their blocks `x0`, `x1`, `x2`, the output window at contents `xi3` it does not touch, the
    accumulator at anything — the body runs to the continuation with the inputs and the output as they were and the
    accumulator written by the pieces `LS` (the zero block, then the zero block plus the first partial product): the
    pieces are the body's stores, last first, each guard settled by the case's hypotheses. -/
noncomputable def run1_first (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : clears1 i) (hc1 : ¬closes1 i)
    (x0 : Vec F S512x1024 .bf16) (x1 : Vec F S1024x1024 .f32) (x2 : Vec F S1x1024 .f32) :
    Σ' (L3 : List (View.Piece (Elt F) S512x1024 .f32)), { LS : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE MIDDLE CASE (contraction blocks 1 and 2: neither guard holds).  As the first case, but the accumulator is
    handed over at what the point before left, `xs`, and is written by one piece: `xs` plus this block's partial
    product.  The output window is again untouched. -/
noncomputable def run1_middle (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : ¬closes1 i)
    (x0 : Vec F S512x1024 .bf16) (x1 : Vec F S1024x1024 .f32) (x2 : Vec F S1x1024 .f32) (xs : Vec F S512x1024 .f32) :
    Σ' (L3 : List (View.Piece (Elt F) S512x1024 .f32)), { LS : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE LAST CASE (contraction block 3: the closing guard holds, the clearing guard does not).  The accumulator comes
    in at `xs` and is written by `xs` plus the last partial product; then the output window, handed over at anything,
    is written by the pieces `L3`: the threshold of that sum plus the bias row. -/
noncomputable def run1_last (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : closes1 i)
    (x0 : Vec F S512x1024 .bf16) (x1 : Vec F S1024x1024 .f32) (x2 : Vec F S1x1024 .f32) (xs : Vec F S512x1024 .f32) :
    Σ' (L3 : List (View.Piece (Elt F) S512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Layers

end
-- ==== Proof.KI.L1Data.lean ====
/-
  The second dense layer as a pipeline region entered at buffer contents `V`: what each grid point
  leaves in the accumulator and in the output window, the region's invariant, and its proof data.

  The accumulator is carried along the contraction axis.  Writing t for a point's number, the point
  with t % 4 = 0 starts a tile: whatever the accumulator held, it leaves the zero block plus the
  first partial product.  A point with t % 4 = 1 or 2 adds its partial product to what the point
  before left.  The point with t % 4 = 3 does the same and then fills the output window with the
  threshold of the finished sum plus the bias row; only there is the output window written back.
  So the accumulator after point t is a function of the accumulator after point t - 1 (unless t
  starts a tile), defined here by recursion on t; the region's invariant after point t is "the
  accumulator holds exactly that".
-/
import proofs.«137112_j54778012893659_1_alg».proof.Proof.KI.L1Body

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block of point `t`: rows of tile i, columns of contraction block k. -/
abbrev ablk1 (c : Dev nD) (t : Fin cfg1.N) : Vec F S512x1024 .bf16 := iblk1 V c 0 t
/-- The weight block of point `t`: rows (output units) of tile j, columns of contraction block k. -/
abbrev wblk1 (c : Dev nD) (t : Fin cfg1.N) : Vec F S1024x1024 .f32 := iblk1 V c 1 t
/-- The bias row of point `t`: the units of tile j. -/
abbrev bblk1 (c : Dev nD) (t : Fin cfg1.N) : Vec F S1x1024 .f32 := iblk1 V c 2 t

/-- An input window's current staging buffer holds its block at every point, whether the pipeline fetched it
    there or not (unfetched, the block index has not moved since the fetch): for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window is fetched only where a tile starts and read only where it ends; in between it is kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a grid point -/

/-- Pieces stored into the accumulator, read back as one block. -/
def accOf (L : List (View.Piece (Elt F) S512x1024 .f32)) : Vec F S512x1024 .f32 :=
  accV1.read (Elt F) (accV1.writes (Elt F) accV1.junk L)
/-- Pieces stored into the output window, read back as one block. -/
def outOf (L : List (View.Piece (Elt F) S512x1024 .f32)) : Vec F S512x1024 .f32 :=
  outV1.read (Elt F) (outV1.writes (Elt F) outV1.junk L)

/-- Pieces that cover the block leave the same contents whatever view they are written through and whatever was
    there before: what the accumulator (the output window) holds after them is `accOf` (`outOf`) of the pieces. -/
theorem read_writes_accOf (v : View sig .tc .vmem S512x1024 .f32) (f : v.ty.Contents (Elt F)) (L : List (View.Piece (Elt F) S512x1024 .f32))
    (h : ∀ y, ∃ p ∈ L, y ∈ p.1.set) : v.read (Elt F) (v.writes (Elt F) f L) = accOf L :=
  View.read_writes_of_cover _ _ _ _ _ h
theorem read_writes_outOf (v : View sig .tc .vmem S512x1024 .f32) (f : v.ty.Contents (Elt F)) (L : List (View.Piece (Elt F) S512x1024 .f32))
    (h : ∀ y, ∃ p ∈ L, y ∈ p.1.set) : v.read (Elt F) (v.writes (Elt F) f L) = outOf L :=
  View.read_writes_of_cover _ _ _ _ _ h

/-- A point that starts a tile is not one that ends it. -/
theorem not_closes_of_start (t : Fin cfg1.N) (h : t.val % 4 = 0) : ¬closes1 (grid1.coords t) :=
  fun h' => by have := (closes1_iff t).mp h'; omega

/-- The first case's run at point `t`, on the point's memrefs and blocks. -/
def firstAt (c : Dev nD) (t : Fin cfg1.N) (h0 : t.val % 4 = 0) :=
  run1_first c (grid1.coords t) (ms1_0 t) (hs1_0 t) (ms1_1 t) (hs1_1 t) (ms1_2 t) (hs1_2 t) (ms1_3 t) (hs1_3 t) acc1 (Memref.isWhole_whole _)
    ((clears1_iff t).mpr h0) (not_closes_of_start t h0) (ablk1 V c t) (wblk1 V c t) (bblk1 V c t)
/-- The middle case's run at point `t`, the accumulator coming in at `xs`. -/
def middleAt (c : Dev nD) (t : Fin cfg1.N) (h0 : ¬t.val % 4 = 0) (h1 : ¬t.val % 4 = 3) (xs : Vec F S512x1024 .f32) :=
  run1_middle c (grid1.coords t) (ms1_0 t) (hs1_0 t) (ms1_1 t) (hs1_1 t) (ms1_2 t) (hs1_2 t) (ms1_3 t) (hs1_3 t) acc1 (Memref.isWhole_whole _)
    (fun h => h0 ((clears1_iff t).mp h)) (fun h => h1 ((closes1_iff t).mp h)) (ablk1 V c t) (wblk1 V c t) (bblk1 V c t) xs
/-- The last case's run at point `t`, the accumulator coming in at `xs`. -/
def lastAt (c : Dev nD) (t : Fin cfg1.N) (h0 : ¬t.val % 4 = 0) (h1 : t.val % 4 = 3) (xs : Vec F S512x1024 .f32) :=
  run1_last c (grid1.coords t) (ms1_0 t) (hs1_0 t) (ms1_1 t) (hs1_1 t) (ms1_2 t) (hs1_2 t) (ms1_3 t) (hs1_3 t) acc1 (Memref.isWhole_whole _)
    (fun h => h0 ((clears1_iff t).mp h)) ((closes1_iff t).mpr h1) (ablk1 V c t) (wblk1 V c t) (bblk1 V c t) xs

/-- Each case's accumulator pieces tile the accumulator, so they cover it; -/
theorem acc_cover_first (c : Dev nD) (t : Fin cfg1.N) (h0 : t.val % 4 = 0) (y : S512x1024.Idx) :
    ∃ pc ∈ (firstAt V c t h0).2.1, y ∈ pc.1.set :=
  View.cover_of_tiledL (firstAt V c t h0).2.1 S512x1024.size (by unfold firstAt; sl_kernel_rfl) y
theorem acc_cover_middle (c : Dev nD) (t : Fin cfg1.N) (h0 : ¬t.val % 4 = 0) (h1 : ¬t.val % 4 = 3) (xs : Vec F S512x1024 .f32) (y : S512x1024.Idx) :
    ∃ pc ∈ (middleAt V c t h0 h1 xs).2.1, y ∈ pc.1.set :=
  View.cover_of_tiledL (middleAt V c t h0 h1 xs).2.1 S512x1024.size (by unfold middleAt; sl_kernel_rfl) y
theorem acc_cover_last (c : Dev nD) (t : Fin cfg1.N) (h0 : ¬t.val % 4 = 0) (h1 : t.val % 4 = 3) (xs : Vec F S512x1024 .f32) (y : S512x1024.Idx) :
    ∃ pc ∈ (lastAt V c t h0 h1 xs).2.1, y ∈ pc.1.set :=
  View.cover_of_tiledL (lastAt V c t h0 h1 xs).2.1 S512x1024.size (by unfold lastAt; sl_kernel_rfl) y
/-- and the last case's one output piece is the whole output block. -/
theorem out_cover_last (c : Dev nD) (t : Fin cfg1.N) (h0 : ¬t.val % 4 = 0) (h1 : t.val % 4 = 3) (xs : Vec F S512x1024 .f32) (y : S512x1024.Idx) :
    ∃ pc ∈ (lastAt V c t h0 h1 xs).1, y ∈ pc.1.set :=
  View.cover_of_tiledL (lastAt V c t h0 h1 xs).1 S512x1024.size (by unfold lastAt; sl_kernel_rfl) y

/-! ## What a point leaves, from what the point before left -/

/-- What point `t` leaves in (the output window, the accumulator) when the accumulator came in at `xs`: the case
    is chosen by `t % 4`; where a tile starts `xs` is not consulted; where the output window is not stored into, its
    component is a placeholder nothing reads. -/
def step1 (c : Dev nD) (t : Fin cfg1.N) (xs : Vec F S512x1024 .f32) : Vec F S512x1024 .f32 × Vec F S512x1024 .f32 :=
  if h0 : t.val % 4 = 0 then (outOf (firstAt V c t h0).1, accOf (firstAt V c t h0).2.1)
  else if h1 : t.val % 4 = 3 then (outOf (lastAt V c t h0 h1 xs).1, accOf (lastAt V c t h0 h1 xs).2.1)
  else (outOf (middleAt V c t h0 h1 xs).1, accOf (middleAt V c t h0 h1 xs).2.1)

theorem step1_first (c : Dev nD) (t : Fin cfg1.N) (xs : Vec F S512x1024 .f32) (h0 : t.val % 4 = 0) :
    step1 V c t xs = (outOf (firstAt V c t h0).1, accOf (firstAt V c t h0).2.1) := dif_pos h0
theorem step1_last (c : Dev nD) (t : Fin cfg1.N) (xs : Vec F S512x1024 .f32) (h0 : ¬t.val % 4 = 0) (h1 : t.val % 4 = 3) :
    step1 V c t xs = (outOf (lastAt V c t h0 h1 xs).1, accOf (lastAt V c t h0 h1 xs).2.1) := (dif_neg h0).trans (dif_pos h1)
theorem step1_middle (c : Dev nD) (t : Fin cfg1.N) (xs : Vec F S512x1024 .f32) (h0 : ¬t.val % 4 = 0) (h1 : ¬t.val % 4 = 3) :
    step1 V c t xs = (outOf (middleAt V c t h0 h1 xs).1, accOf (middleAt V c t h0 h1 xs).2.1) := (dif_neg h0).trans (dif_neg h1)

/-- THE ACCUMULATION: the accumulator after the point numbered `n`, by recursion on `n`. -/
def accAt (c : Dev nD) : (n : ℕ) → n < cfg1.N → Vec F S512x1024 .f32
  | 0, hn => (step1 V c ⟨0, hn⟩ (accOf [])).2
  | n + 1, hn => (step1 V c ⟨n + 1, hn⟩ (accAt c n (Nat.lt_of_succ_lt hn))).2

/-- The accumulator as the point numbered `n` finds it: what the point before left (before the first point, a
    placeholder: that point starts a tile and does not consult it). -/
def accBefore (c : Dev nD) : (n : ℕ) → n < cfg1.N → Vec F S512x1024 .f32
  | 0, _ => accOf []
  | n + 1, hn => accAt V c n (Nat.lt_of_succ_lt hn)

/-- The accumulator after a point is that point's step from what it found. -/
theorem accAt_eq (c : Dev nD) (t : Fin cfg1.N) : accAt V c t.val t.isLt = (step1 V c t (accBefore V c t.val t.isLt)).2 := by
  obtain ⟨n, hn⟩ := t
  cases n with
  | zero => rfl
  | succ n => rfl

/-- After the first point, what a point finds is what the point before left. -/
theorem accBefore_pos (c : Dev nD) (n : ℕ) (hn : n < cfg1.N) (hz : n ≠ 0) :
    accBefore V c n hn = accAt V c (n - 1) (Nat.lt_of_le_of_lt (Nat.sub_le _ _) hn) := by
  cases n with
  | zero => exact absurd rfl hz
  | succ n => rfl

/-- The output window's staging buffer after point `t`. -/
def outAt (c : Dev nD) (t : Fin cfg1.N) : Vec F S512x1024 .f32 := (step1 V c t (accBefore V c t.val t.isLt)).1

/-! ## The region's invariant -/

/-- Before the point numbered `n`: on entry, what the launch hands the region (the accumulator at anything); later,
    the same state with the accumulator at exactly what the point before left. -/
def Phi1 (c : Dev nD) : (n : ℕ) → n ≤ cfg1.N → sProp 𝕄
  | 0, _ => Pipeline.ΦA spec1 c
  | n + 1, hn => around1 c (owns (c : Thread nD τ) acc1 fullShare (accAt V c n hn))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = around1 c (owns (c : Thread nD τ) acc1 fullShare (accAt V c n hn)) := rfl
theorem Phi1_pos (c : Dev nD) (n : ℕ) (h : n ≤ cfg1.N) (hz : n ≠ 0) :
    Phi1 V c n h = around1 c (owns (c : Thread nD τ) acc1 fullShare (accAt V c (n - 1) (by omega))) := by
  cases n with
  | zero => exact absurd rfl hz
  | succ n => rfl

/-- At any point the invariant yields the accumulator at SOME contents, and takes it back at any named contents. -/
theorem Phi1_any (c : Dev nD) (n : ℕ) (h : n ≤ cfg1.N) (Q : sProp 𝕄) :
    Phi1 V c n h ⊢ iprop((∃ d, owns (c : Thread nD τ) acc1 fullShare d) ∗ (Q -∗ around1 c Q)) := by
  cases n with
  | zero =>
    rw [Phi1_zero V c 0 h rfl, PhiA1_eq]
    exact around1_swap c _ Q
  | succ n =>
    rw [Phi1_succ]
    iintro H
    ihave H' := around1_swap c _ Q $$ H
    icases H' with ⟨HS, Hb⟩
    isplitl [HS]; · iexists _; iexact HS
    iexact Hb

/-! ## The proof data -/

/-- The region's proof data on core `c`: the arrays as the region finds them; after the body at point `t` each
    input window at its block and the output window at `outAt`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window is never idle: after the body it holds its block. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
/-- Where a tile ends the output window is live: it holds what the step left. -/
theorem leaves1_3_last (c : Dev nD) (t : Fin cfg1.N) (h1 : t.val % 4 = 3) :
    (dat1 V c).leavesExact 3 t = owns (c : Thread nD τ) (ms1_3 t) fullShare (outAt V c t) := by
  unfold Dat.leavesExact; rw [live1_3 t ((closes1_iff t).mpr h1), after1_3]
/-- Elsewhere it is idle and not written back: it holds what it held. -/
theorem leaves1_3_idle (c : Dev nD) (t : Fin cfg1.N) (h1 : ¬t.val % 4 = 3) :
    (dat1 V c).leavesExact 3 t = iprop(∃ d, owns (c : Thread nD τ) (ms1_3 t) fullShare ((dat1 V c).before 3 t d)) :=
  Dat.leavesExact_idle (dat1 V c) 3 t (idle1_3 t (fun h => h1 ((closes1_iff t).mp h))) (noFlush1_3 t (fun h => h1 ((closes1_iff t).mp h)))

set_option maxHeartbeats 4800000 in
/-- The body at any point.  The inputs' memrefs hold their blocks; `t % 4` says which case the point is in, so that
    case's run applies.  The invariant hands the body the accumulator — at anything where a tile starts, else at
    what the point before left — and takes it back at what this point's step leaves (the case's pieces cover the
    accumulator, so what they leave does not depend on what was there).  The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1, leaves1_2, accAt_eq V c t]
  have hN : t.val < 256 := lt_of_lt_of_eq t.isLt (show cfg1.N = 256 from N_1)
  by_cases h0 : t.val % 4 = 0
  · -- a tile starts: the accumulator is taken at anything
    have h1 : ¬t.val % 4 = 3 := by omega
    rw [leaves1_3_idle V c t h1, step1_first V c t _ h0]; dsimp only
    iintro ⟨HΦ, Ho, ⟨%d0, H0⟩, ⟨%d1, H1⟩, ⟨%d2, H2⟩, ⟨%d3, H3⟩⟩
    ihave HΦ' := Phi1_any V c t.val _ (owns (c : Thread nD τ) acc1 fullShare (accOf (firstAt V c t h0).2.1)) $$ HΦ
    icases HΦ' with ⟨HS, Hb⟩
    iapply ((firstAt V c t h0).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hb]
    · iapply Hb
      unfold owns; iexists _; isplitr
      swap; · iexact HS
      ipureintro; exact read_writes_accOf _ _ _ (acc_cover_first V c t h0)
    isplitl [Ho]; · iexact Ho
    isplitl [H0]; · iexact H0
    isplitl [H1]; · iexact H1
    isplitl [H2]; · iexact H2
    iexists _; iexact H3
  · have hz : t.val ≠ 0 := fun h => h0 (by rw [h])
    rw [Phi1_pos V c _ _ hz, ← accBefore_pos V c t.val t.isLt hz]
    by_cases h1 : t.val % 4 = 3
    · -- a tile ends: the sum is finished and the output block stored
      rw [leaves1_3_last V c t h1]
      unfold outAt
      rw [step1_last V c t _ h0 h1]; dsimp only
      iintro ⟨HΦ, Ho, ⟨%d0, H0⟩, ⟨%d1, H1⟩, ⟨%d2, H2⟩, ⟨%d3, H3⟩⟩
      ihave HΦ' := around1_swap c _ (owns (c : Thread nD τ) acc1 fullShare (accOf (lastAt V c t h0 h1 (accBefore V c t.val t.isLt)).2.1)) $$ HΦ
      icases HΦ' with ⟨HS, Hb⟩
      iapply ((lastAt V c t h0 h1 (accBefore V c t.val t.isLt)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb]
      · iapply Hb
        unfold owns; iexists _; isplitr
        swap; · iexact HS
        ipureintro; exact read_writes_accOf _ _ _ (acc_cover_last V c t h0 h1 _)
      isplitl [Ho]; · iexact Ho
      isplitl [H0]; · iexact H0
      isplitl [H1]; · iexact H1
      isplitl [H2]; · iexact H2
      unfold owns; iexists _; isplitr
      swap; · iexact H3
      ipureintro; exact read_writes_outOf _ _ _ (out_cover_last V c t h0 h1 _)
    · -- inside a tile: one more partial product
      rw [leaves1_3_idle V c t h1, step1_middle V c t _ h0 h1]; dsimp only
      iintro ⟨HΦ, Ho, ⟨%d0, H0⟩, ⟨%d1, H1⟩, ⟨%d2, H2⟩, ⟨%d3, H3⟩⟩
      ihave HΦ' := around1_swap c _ (owns (c : Thread nD τ) acc1 fullShare (accOf (middleAt V c t h0 h1 (accBefore V c t.val t.isLt)).2.1)) $$ HΦ
      icases HΦ' with ⟨HS, Hb⟩
      iapply ((middleAt V c t h0 h1 (accBefore V c t.val t.isLt)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb]
      · iapply Hb
        unfold owns; iexists _; isplitr
        swap; · iexact HS
        ipureintro; exact read_writes_accOf _ _ _ (acc_cover_middle V c t h0 h1 _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the launch's state back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl, PhiA1_eq]
  iintro H
  ihave H' := Phi1_any V c _ _ iprop(∃ d, owns (c : Thread nD τ) acc1 fullShare d) $$ H
  icases H' with ⟨HS, Hb⟩
  iapply Hb
  iexact HS

end Cert.KernelIdeal.Layers

end
-- ==== Proof.KI.Launch.lean ====
/-
  The whole program as its two layers in sequence.

  When the first layer's region is entered the core's buffers hold the launch contents with the two
  biases reshaped to rows; when it is left, the hidden-activation array holds what the region's
  write-backs leave (the proof data's final array), everything else as entered; the second layer
  is entered from those contents and leaves the result array likewise.  Each region is entered with
  the scratch accumulator at anything, carries it at its named contents from point to point, and
  gives it back at anything.  Nothing is owed between cores and no semaphore is the kernels' own.
-/
import proofs.«137112_j54778012893659_1_alg».proof.Proof.KI.L0Data
import proofs.«137112_j54778012893659_1_alg».proof.Proof.KI.L1Data
import proofs.«137112_j54778012893659_1_alg».proof.Proof.Gen.KernelIdeal.Regions
import Idealize.ShloMosaic.Lib.Pipeline.RegionsLoop

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two regions' entries -/

/-- What the first layer's region finds: the launch contents after the two bias reshapes. -/
abbrev atL0 (c : Dev nD) (b : Ref sig .tc) : Buf (Elt F) ((c : Thread nD τ).loc b) := Gen.V1 m c b

/-- The hidden activations as the first region leaves them. -/
def L1Arr (c : Dev nD) : Buf (Elt F) ((c : Thread nD τ).loc main_v2) := (dat0 (atL0 m) c).arrAt 3 cfg0.N

/-- The core's buffers after the first region: the hidden activations written, the rest as entered. -/
abbrev afterL0 (c : Dev nD) : Valuation τ sig (Elt F) := Function.update (Gen.V1 m c) main_v2 (L1Arr m c)
/-- The same read at the TensorCore's references: what the second layer's region finds. -/
abbrev atL1 (c : Dev nD) (b : Ref sig .tc) : Buf (Elt F) ((c : Thread nD τ).loc b) := afterL0 m c b

/-- The result array as the second region leaves it. -/
def L2Arr (c : Dev nD) : Buf (Elt F) ((c : Thread nD τ).loc main_v3) := (dat1 (atL1 m) c).arrAt 3 cfg1.N

/-- What the two regions leave in the arrays they write, as the family the conditional frame is stated over: only
    the hidden activations after the first region and the result after the second are ever read. -/
def outsOf : Gen.Outs (F := F) := fun _ r c =>
  Function.update (Function.update (fun r' : Ref sig .tc => (Gen.V1 m c r' : Buf (Elt F) ((c : Thread nD τ).loc r')))
    main_v2 (L1Arr m c)) main_v3 (L2Arr m c) r

theorem outsOf_v2 (J : ℕ) (c : Dev nD) : outsOf m J main_v2 c = L1Arr m c := by
  unfold outsOf
  rw [Function.update_of_ne (by decide : (main_v2 : Ref sig .tc) ≠ main_v3), Function.update_self]

theorem outsOf_v3 (J : ℕ) (c : Dev nD) : outsOf m J main_v3 c = L2Arr m c := by
  unfold outsOf
  rw [Function.update_self]

/-- After the first region the generated valuation is the one above. -/
theorem V2_eq (c : Dev nD) : Gen.V2 m (outsOf m) c = afterL0 m c := by
  unfold Gen.V2 afterL0; rw [outsOf_v2]

/-! ## The proof data of both regions, and what rides beside the buffers -/

/-- Both regions' proof data, each at its region's entry contents (a literal match on the region's number). -/
def pdats : (p : Fin 2) → (c : Dev nD) → Dat τ (Elt F) Unit ℕ (UR sig nD τ) ℕ (Pipeline.pin (pcfgs (F := F)) Gen.adm p) c
  | ⟨0, _⟩ => fun c => dat0 (atL0 m) c
  | ⟨1, _⟩ => fun c => dat1 (atL1 m) c

abbrev noVariants : Variants := Variants.none
/-- No core owes another anything: no pair is levelled. -/
abbrev noPairs : GSem nD τ sig → Finset Unit := fun _ => ∅
abbrev noLevel : GSem nD τ sig → Unit → ℕ := fun _ _ => 0

/-- Beside the buffers every segment carries the generator register at some state and the core owing nothing. -/
abbrev rest (c : Dev nD) : sProp 𝕄 :=
  iprop((∃ r, prngReg c r) ∗ ∃ W, owes (c : Thread nD τ) (0 : CellTallies nD τ sig Unit) W)

/-! ## The first layer's region as a segment -/

theorem arr0_exit (c : Dev nD) (w : Fin cfg0.W) :
    (pdats m 0 c).arrAt w cfg0.N = (fun b : Ref sig .tc => (Gen.V2 m (outsOf m) c b : Buf (Elt F) ((c : Thread nD τ).loc b))) (Pipeline.arrRef spec0 w) := by
  match w with
  | ⟨0, _⟩ => exact ((dat0 (atL0 m) c).arrAt_in 0 rfl _).trans ((A_eq0 (atL0 m) c 0).trans (Gen.V2_of m (outsOf m) c main_arg0 (by decide)).symm)
  | ⟨1, _⟩ => exact ((dat0 (atL0 m) c).arrAt_in 1 rfl _).trans ((A_eq0 (atL0 m) c 1).trans (Gen.V2_of m (outsOf m) c main_arg1 (by decide)).symm)
  | ⟨2, _⟩ => exact ((dat0 (atL0 m) c).arrAt_in 2 rfl _).trans ((A_eq0 (atL0 m) c 2).trans (Gen.V2_of m (outsOf m) c main_v0 (by decide)).symm)
  | ⟨3, _⟩ =>
    show L1Arr m c = _
    rw [V2_eq]; simp only [Function.update_self]

theorem rest0_exit (c : Dev nD) : ∀ b : Ref sig .tc, b ∉ Finset.univ.image (Pipeline.arrRef spec0) →
    (Gen.V2 m (outsOf m) c b : Buf (Elt F) ((c : Thread nD τ).loc b)) = Gen.V1 m c b := fun b hb =>
  Gen.V2_of m (outsOf m) c b (by
    intro h; apply hb; rw [List.mem_singleton] at h; subst h
    exact Finset.mem_image.mpr ⟨3, Finset.mem_univ _, rfl⟩)

set_option backward.isDefEq.respectTransparency.types false in
/-- The first layer's region: entered from every unscoped buffer at the reshaped launch contents, left with the hidden
    activations written.  Its four arrays are split out of the unscoped buffers and put back at their exit contents; the
    generator register and the scoped buffers go into the region's invariant (the scratch at anything) and come back
    (the scratch's contents forgotten). -/
def regL0 : Pipeline.RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (atL0 m) c).loose
  hwaits := Pipeline.hwaits_of_owed_zero _ _ _ _ noPairs noLevel 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (atL0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atL0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := (Pipeline.ΦA spec0 c : sProp 𝕄)) ?_ (hin0 (atL0 m) c)
    unfold Pipeline.ΦA
    iintro ⟨Hp, -, Hr⟩
    isplitl [Hr]; · iexact Hr
    iexact Hp
  hout c := by
    refine (hout0 (atL0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atL0 m c) (fun b => Gen.V2 m (outsOf m) c b) ((pdats m 0 c).arrAt · cfg0.N) (arr0_exit m c) (rest0_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second layer's region as a segment -/

theorem arr1_exit (c : Dev nD) (w : Fin cfg1.W) :
    (pdats m 1 c).arrAt w cfg1.N = (fun b : Ref sig .tc => (Gen.V3 m (outsOf m) c b : Buf (Elt F) ((c : Thread nD τ).loc b))) (Pipeline.arrRef spec1 w) := by
  match w with
  | ⟨0, _⟩ => exact ((dat1 (atL1 m) c).arrAt_in 0 rfl _).trans ((A_eq1 (atL1 m) c 0).trans
      ((congrFun (V2_eq m c) _).symm.trans (Gen.V3_of m (outsOf m) c main_v2 (by decide)).symm))
  | ⟨1, _⟩ => exact ((dat1 (atL1 m) c).arrAt_in 1 rfl _).trans ((A_eq1 (atL1 m) c 1).trans
      ((congrFun (V2_eq m c) _).symm.trans (Gen.V3_of m (outsOf m) c main_arg3 (by decide)).symm))
  | ⟨2, _⟩ => exact ((dat1 (atL1 m) c).arrAt_in 2 rfl _).trans ((A_eq1 (atL1 m) c 2).trans
      ((congrFun (V2_eq m c) _).symm.trans (Gen.V3_of m (outsOf m) c main_v1 (by decide)).symm))
  | ⟨3, _⟩ =>
    show L2Arr m c = _
    unfold Gen.V3; rw [outsOf_v3]; simp only [Function.update_self]

theorem rest1_exit (c : Dev nD) : ∀ b : Ref sig .tc, b ∉ Finset.univ.image (Pipeline.arrRef spec1) →
    (Gen.V3 m (outsOf m) c b : Buf (Elt F) ((c : Thread nD τ).loc b)) = atL1 m c b := fun b hb =>
  (Gen.V3_of m (outsOf m) c b (by
    intro h; apply hb; rw [List.mem_singleton] at h; subst h
    exact Finset.mem_image.mpr ⟨3, Finset.mem_univ _, rfl⟩)).trans (congrFun (V2_eq m c) _)

set_option backward.isDefEq.respectTransparency.types false in
/-- The second layer's region: entered from the contents the first left, left with the result array written. -/
def regL1 : Pipeline.RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (atL1 m) c).loose
  hwaits := Pipeline.hwaits_of_owed_zero _ _ _ _ noPairs noLevel 1 fun _ _ => rfl
  pre c := iprop(StableHlo.held (c : Thread nD τ) (Pipeline.ucRefs τ sig) (afterL0 m c) ∗ rest c)
  post c := iprop(StableHlo.held (c : Thread nD τ) (Pipeline.ucRefs τ sig) (Gen.V3 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (atL1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atL1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := (Pipeline.ΦA spec1 c : sProp 𝕄)) ?_ (hin1 (atL1 m) c)
    unfold Pipeline.ΦA
    iintro ⟨Hp, -, Hr⟩
    isplitl [Hr]; · iexact Hr
    iexact Hp
  hout c := by
    refine (hout1 (atL1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atL1 m c) (fun b => Gen.V3 m (outsOf m) c b) ((pdats m 1 c).arrAt · cfg1.N) (arr1_exit m c) (rest1_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding plain
-- definitions in a metavariable's type
set_option backward.isDefEq.respectTransparency.types false in
/-- From any memory with zero counters every weakly fair execution of the program terminates, faulting nowhere; the
    result array ends at what the second region's write-backs leave and every argument array as launched. -/
theorem run_both : θ_run defs (onTc (τ := τ) (main (F := F))) ⟨m, fun _ => 0, ρ⟩ (fun r => ∀ c : Dev nD,
      r.2.mem ((c.tc : Thread nD τ).loc main_v3) = L2Arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ noVariants noPairs noLevel m ρ main
    (Gen.segs m noVariants noPairs noLevel (fun _ c => rest c) () (pdats m) (regL0 m) (regL1 m))
    (fun c Q => by
      rewrite [main_chain c, Pipeline.Seg.run_eq_chain,
        show (Gen.segs m noVariants noPairs noLevel (fun _ c => rest c) () (pdats m) (regL0 m) (regL1 m) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V3 m (outsOf m) c))
    (hch := fun c => ⟨.rfl, .rfl, Entails.of_eq (by
      show iprop(StableHlo.held (c : Thread nD τ) (Pipeline.ucRefs τ sig) (Gen.V2 m (outsOf m) c) ∗ rest c)
        = iprop(StableHlo.held (c : Thread nD τ) (Pipeline.ucRefs τ sig) (afterL0 m c) ∗ rest c)
      rw [V2_eq]), sep_mono .rfl (by iintro ⟨-, H⟩; iexact H)⟩)
    (hinit := ?_)
    (QY := fun c s => s.mem ((c.tc : Thread nD τ).loc main_v3) = L2Arr m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the rest is the register and nothing owed
    refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V3 m (outsOf m) c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans
          ((Function.update_self ..).trans (outsOf_v3 m 3 c)),
        (h (Proc.devRef .tc main_arg0) (Finset.mem_filter.mpr ⟨StableHlo.devRef_mem_tcRefs main_arg0, by decide⟩)).trans (Gen.V3_main_arg0 m (outsOf m) c),
        (h (Proc.devRef .tc main_arg1) (Finset.mem_filter.mpr ⟨StableHlo.devRef_mem_tcRefs main_arg1, by decide⟩)).trans (Gen.V3_main_arg1 m (outsOf m) c),
        (h (Proc.devRef .tc main_arg2) (Finset.mem_filter.mpr ⟨StableHlo.devRef_mem_tcRefs main_arg2, by decide⟩)).trans (Gen.V3_main_arg2 m (outsOf m) c),
        (h (Proc.devRef .tc main_arg3) (Finset.mem_filter.mpr ⟨StableHlo.devRef_mem_tcRefs main_arg3, by decide⟩)).trans (Gen.V3_main_arg3 m (outsOf m) c),
        (h (Proc.devRef .tc main_arg4) (Finset.mem_filter.mpr ⟨StableHlo.devRef_mem_tcRefs main_arg4, by decide⟩)).trans (Gen.V3_main_arg4 m (outsOf m) c)⟩
    · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_both m ρ)

end Cert.KernelIdeal.Layers

end
-- ==== Proof.KI.Entry.lean ====
/-
  What the first layer finds in the arrays when it starts, read back to the memory at launch.

  Before the first layer runs, the host only re-lays each bias vector of 4096 entries as a matrix
  of one row and 4096 columns.  So the activations and both weight matrices are still exactly what
  the launch memory holds, and each re-laid bias has, in its one row, the bias vector's entries in
  order: a reshape keeps the row-major position, and the position of (0, n) in a 1 × 4096 matrix is
  0 · 4096 + n = n, the position of n in the vector.
-/
import proofs.«137112_j54778012893659_1_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Layers

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The arrays the host does not touch -/

/-- The activations are as launched: neither re-laying writes them. -/
theorem entry_arg0 (c : Dev nD) :
    (Gen.V1 m c main_arg0 : Buf (Elt F) ((c : Thread nD τ).loc main_arg0)) = m ((c : Thread nD τ).loc main_arg0) :=
  (Gen.V1_of m c main_arg0 (by decide)).trans rfl

/-- The first layer's weights are as launched. -/
theorem entry_arg1 (c : Dev nD) :
    (Gen.V1 m c main_arg1 : Buf (Elt F) ((c : Thread nD τ).loc main_arg1)) = m ((c : Thread nD τ).loc main_arg1) :=
  (Gen.V1_of m c main_arg1 (by decide)).trans rfl

/-- The second layer's weights are as launched. -/
theorem entry_arg3 (c : Dev nD) :
    (Gen.V1 m c main_arg3 : Buf (Elt F) ((c : Thread nD τ).loc main_arg3)) = m ((c : Thread nD τ).loc main_arg3) :=
  (Gen.V1_of m c main_arg3 (by decide)).trans rfl

/-! ## The two re-laid biases -/

/-- The first layer's bias as a one-row matrix: row 0, column `n` is entry `n` of the bias vector. -/
theorem entry_bias0 (c : Dev nD) (n : Fin 4096) :
    (Gen.V1 m c main_v0 : Buf (Elt F) ((c : Thread nD τ).loc main_v0)) (ix2 0 n) = m ((c : Thread nD τ).loc main_arg2) (ix1 n) := by
  have e : (Gen.V1 m c main_v0 : Buf (Elt F) ((c : Thread nD τ).loc main_v0))
      = shapeCast S1x4096 (m ((c : Thread nD τ).loc main_arg2)) Facts₀.shapeCasts_S4096_S1x4096 := by
    dsimp only [Gen.V1, Gen.hostOps0]; after_results; rfl
  rw [e]
  exact shapeCast_a_1a_apply _ _ 0 n

/-- The second layer's bias as a one-row matrix: row 0, column `n` is entry `n` of the bias vector.
    The first re-laying writes another array, so it leaves this one alone. -/
theorem entry_bias1 (c : Dev nD) (n : Fin 4096) :
    (Gen.V1 m c main_v1 : Buf (Elt F) ((c : Thread nD τ).loc main_v1)) (ix2 0 n) = m ((c : Thread nD τ).loc main_arg4) (ix1 n) := by
  have e : (Gen.V1 m c main_v1 : Buf (Elt F) ((c : Thread nD τ).loc main_v1))
      = shapeCast S1x4096 (m ((c : Thread nD τ).loc main_arg4)) Facts₀.shapeCasts_S4096_S1x4096 := by
    dsimp only [Gen.V1, Gen.hostOps0]; after_results; rfl
  rw [e]
  exact shapeCast_a_1a_apply _ _ 0 n

end Cert.KernelIdeal.Layers

end
-- ==== Proof.Spec.lean ====
/-
  The two-layer network both programs compute, as plain functions on extended reals.

  A dense layer's pre-activation at row `r` and unit `n` is the inner product of row `r` of the
  activations with row `n` of the weights (both contracted along their second axis) plus the
  unit's bias.  The first layer clamps it below at zero; the second layer fires (value one) exactly
  when it is positive, and is zero otherwise.  The zero both layers compare against is kept as the
  value of the all-zero 32-bit pattern, so that neither side of the comparison is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The value of the all-zero single-precision pattern (it is the real number zero: `zero32_eq`). -/
def zero32 : EReal := Ideal.ofBits .f32 0x00000000#32

theorem zero32_eq : zero32 = 0 := Ideal.ofBits_zero_f32

/-- Activations and layer outputs: 8192 rows of 4096 features. -/
abbrev Act : Type := (⟨2, ![8192, 4096]⟩ : Shape).Idx → EReal
/-- A weight matrix: 4096 units, each a row of 4096 coefficients. -/
abbrev Wts : Type := (⟨2, ![4096, 4096]⟩ : Shape).Idx → EReal

/-- A dense layer before its activation: `∑ k, a[r,k] · w[n,k] + β n`. -/
def dense (a : Act) (w : Wts) (β : Fin 4096 → EReal) (r : Fin 8192) (n : Fin 4096) : EReal :=
  (∑ k : Fin 4096, a (ix2 r k) * w (ix2 n k)) + β n

/-- The first layer: the dense layer clamped below at zero. -/
def hidden (a : Act) (w : Wts) (β : Fin 4096 → EReal) : Act :=
  fun j => max (dense a w β (j 0) (j 1)) zero32

/-- One if `y` is positive, zero otherwise: the comparison's bit read as an unsigned integer. -/
def fire (y : EReal) : EReal := (((Ideal.cmp .ogt y zero32 : BitVec 1).toNat : ℝ) : EReal)

/-- The second layer: the dense layer thresholded at zero. -/
def fired (a : Act) (w : Wts) (β : Fin 4096 → EReal) : Act :=
  fun j => fire (dense a w β (j 0) (j 1))

/-- The whole network. -/
def spikes (x : Act) (w₁ : Wts) (β₁ : Fin 4096 → EReal) (w₂ : Wts) (β₂ : Fin 4096 → EReal) : Act :=
  fired (hidden x w₁ β₁) w₂ β₂

/-- Widening the comparison's bit to 32 bits and reading it as a SIGNED integer gives the same number:
    a one-bit value is 0 or 1 either way. -/
theorem fire_signed (y : EReal) :
    ((((Ideal.cmp .ogt y zero32 : BitVec 1).setWidth 32).toInt : ℝ) : EReal) = fire y := by
  unfold fire
  have h : ∀ b : BitVec 1, (b.setWidth 32).toInt = (b.toNat : ℤ) := by decide
  rw [h]; norm_cast

end Cert.Spec

end
-- ==== Proof.KI.PayIdx.lean ====
/-
  The tile body of the two dense layers, read at one element.

  Both layers run the same body on a tile of 512 rows by 1024 units.  It forms three pure values: the
  zero tile that clears the running sum, the running sum after one more slice of 1024 features has
  been contracted, and the finished tile after bias and activation.  Each is read here at a row `p`
  and a unit `q` as arithmetic on extended reals:

    * the cleared sum            : the value of the all-zero pattern;
    * one more slice             : s[p,q] + ∑ κ, x[p,κ] · w[q,κ]  — both operands are contracted along
                                   their second axis, so unit `q` reads ROW `q` of the weights;
    * the first layer, finished  : max (s[p,q] + b[0,q]) 0;
    * the second layer, finished : 1 if s[p,q] + b[0,q] > 0, else 0.

  Narrowing to the 16-bit format is the identity on ideal values, a cast to the same shape is the
  identity, and the one bias row is repeated over all 512 rows.
-/
import proofs.«137112_j54778012893659_1_alg».proof.Proof.Gen.KernelIdeal.Skeleton
import proofs.«137112_j54778012893659_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Layers

open Cert.KernelIdeal Cert.KernelIdeal.Gen Idealize.ShloMosaic Idealize.ShloMosaic.ValueIdx

/-! ## The tile product's operand indices

The product contracts axis 1 of the activations with axis 1 of the weights; axis 0 of each operand is
free.  At output element `i` and contraction index `c` the left operand is therefore read at
(row of `i`, `c`) and the right operand at (unit of `i`, `c`). -/

/-- The left operand's row is the output's row. -/
theorem tile_lhs_row (i : S512x1024.Idx) (c : dot_S512x1024_S1024x1024_S512x1024_1_1_0_0_n_n.contr.Idx) :
    (dot_S512x1024_S1024x1024_S512x1024_1_1_0_0_n_n.lhsIdx i c 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

/-- The left operand's feature is the contraction index. -/
theorem tile_lhs_feature (i : S512x1024.Idx) (c : dot_S512x1024_S1024x1024_S512x1024_1_1_0_0_n_n.contr.Idx) :
    (dot_S512x1024_S1024x1024_S512x1024_1_1_0_0_n_n.lhsIdx i c 1).val = (c ⟨0, by decide⟩).val :=
  dot_S512x1024_S1024x1024_S512x1024_1_1_0_0_n_n.lhsIdx_val_of_single rfl i c

/-- The right operand's row is the output's unit. -/
theorem tile_rhs_unit (i : S512x1024.Idx) (c : dot_S512x1024_S1024x1024_S512x1024_1_1_0_0_n_n.contr.Idx) :
    (dot_S512x1024_S1024x1024_S512x1024_1_1_0_0_n_n.rhsIdx i c 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- The right operand's feature is the contraction index. -/
theorem tile_rhs_feature (i : S512x1024.Idx) (c : dot_S512x1024_S1024x1024_S512x1024_1_1_0_0_n_n.contr.Idx) :
    (dot_S512x1024_S1024x1024_S512x1024_1_1_0_0_n_n.rhsIdx i c 1).val = (c ⟨0, by decide⟩).val :=
  dot_S512x1024_S1024x1024_S512x1024_1_1_0_0_n_n.rhsIdx_val_of_single rfl i c

/-- The tile product into a zero accumulator, at row `p` and unit `q`: the inner product of row `p`
    of the activations with row `q` of the weights, over the slice's 1024 features.  The contraction
    index set has one axis of extent 1024; the sum is re-indexed along that axis. -/
theorem tile_product_at {φ₁ φ₂ : FTy} (x : FVec Ideal S512x1024 φ₁) (w : FVec Ideal S1024x1024 φ₂)
    (p : Fin 512) (q : Fin 1024) :
    matmul (F := Ideal) dot_S512x1024_S1024x1024_S512x1024_1_1_0_0_n_n none x w (constant (F := Ideal) S512x1024 .f32 0x00000000#32) (ix2 p q)
      = ∑ κ : Fin 1024, x (ix2 p κ) * w (ix2 q κ) := by
  refine (Ideal.matmul_constant_zero_apply dot_S512x1024_S1024x1024_S512x1024_1_1_0_0_n_n none x w (ix2 p q)).trans ?_
  rw [← Equiv.sum_comp (contrEquiv1 dot_S512x1024_S1024x1024_S512x1024_1_1_0_0_n_n 1024 rfl rfl).symm]
  refine Finset.sum_congr rfl fun κ _ => ?_
  have hκ := contrEquiv1_symm_val dot_S512x1024_S1024x1024_S512x1024_1_1_0_0_n_n 1024 rfl rfl κ
  have el : dot_S512x1024_S1024x1024_S512x1024_1_1_0_0_n_n.lhsIdx (ix2 p q) ((contrEquiv1 dot_S512x1024_S1024x1024_S512x1024_1_1_0_0_n_n 1024 rfl rfl).symm κ) = ix2 p κ := funext fun a => Fin.ext (by
    match a with
    | ⟨0, _⟩ => exact tile_lhs_row _ _
    | ⟨1, _⟩ => exact (tile_lhs_feature _ _).trans hκ)
  have er : dot_S512x1024_S1024x1024_S512x1024_1_1_0_0_n_n.rhsIdx (ix2 p q) ((contrEquiv1 dot_S512x1024_S1024x1024_S512x1024_1_1_0_0_n_n 1024 rfl rfl).symm κ) = ix2 q κ := funext fun a => Fin.ext (by
    match a with
    | ⟨0, _⟩ => exact tile_rhs_unit _ _
    | ⟨1, _⟩ => exact (tile_rhs_feature _ _).trans hκ)
  rw [el, er]

/-! ## The first layer's tile body -/

/-- Clearing the running sum writes the zero pattern everywhere. -/
theorem pay1_0_at (y : S512x1024.Idx) : (k0_pay1 (F := Ideal)) y = Cert.Spec.zero32 := by
  unfold k0_pay1
  rw [shapeCast_self]
  rfl

/-- One more slice: the running sum plus the inner product of the activations' row with the weights'
    row over the slice (narrowing both operands to 16 bits changes no ideal value). -/
theorem pay2_0_at (x : Vec Ideal S512x1024 .f32) (w : Vec Ideal S1024x1024 .f32) (s : Vec Ideal S512x1024 .f32)
    (p : Fin 512) (q : Fin 1024) :
    k0_pay2 x w s (ix2 p q) = s (ix2 p q) + ∑ κ : Fin 1024, x (ix2 p κ) * w (ix2 q κ) := by
  unfold k0_pay2
  rw [shapeCast_self]
  refine (addf_apply _ _ _).trans ?_
  exact congrArg (s (ix2 p q) + ·) (tile_product_at _ _ p q)

/-- The finished tile of the first layer: the sum plus the unit's bias, clamped below at zero (and
    narrowed to 16 bits, which changes no ideal value). -/
theorem pay3_0_at (s : Vec Ideal S512x1024 .f32) (b : Vec Ideal S1x1024 .f32) (p : Fin 512) (q : Fin 1024) :
    k0_pay3 s b (ix2 p q) = max (s (ix2 p q) + b (ix2 0 q)) Cert.Spec.zero32 := by
  unfold k0_pay3
  rw [shapeCast_self]
  refine (truncf_apply (φ := .f32) (ψ := .bf16) _ bitsLt_bf16_f32 (ix2 p q)).trans ?_
  refine (maximumf_apply _ _ _).trans ?_
  refine congrArg (max · Cert.Spec.zero32) ?_
  refine (addf_apply _ _ _).trans ?_
  exact congrArg (s (ix2 p q) + ·) (broadcastTo_1b_ab_apply b _ p q)

/-! ## The second layer's tile body -/

/-- Clearing the running sum writes the zero pattern everywhere. -/
theorem pay1_1_at (y : S512x1024.Idx) : (k1_pay1 (F := Ideal)) y = Cert.Spec.zero32 := by
  unfold k1_pay1
  rw [shapeCast_self]
  rfl

/-- One more slice: as in the first layer; here the activations arrive in the 16-bit format already. -/
theorem pay2_1_at (x : Vec Ideal S512x1024 .bf16) (w : Vec Ideal S1024x1024 .f32) (s : Vec Ideal S512x1024 .f32)
    (p : Fin 512) (q : Fin 1024) :
    k1_pay2 x w s (ix2 p q) = s (ix2 p q) + ∑ κ : Fin 1024, x (ix2 p κ) * w (ix2 q κ) := by
  unfold k1_pay2
  rw [shapeCast_self, shapeCast_self]
  refine (addf_apply _ _ _).trans ?_
  exact congrArg (s (ix2 p q) + ·) (tile_product_at _ _ p q)

/-- The finished tile of the second layer: one where the sum plus the unit's bias is positive, zero
    elsewhere.  The comparison's bit is widened to 32 bits and read as a signed integer, which for one
    bit is the same number as reading it unsigned. -/
theorem pay3_1_at (s : Vec Ideal S512x1024 .f32) (b : Vec Ideal S1x1024 .f32) (p : Fin 512) (q : Fin 1024) :
    k1_pay3 s b (ix2 p q) = Cert.Spec.fire (s (ix2 p q) + b (ix2 0 q)) := by
  unfold k1_pay3
  rw [shapeCast_self]
  refine Eq.trans ?_ (Cert.Spec.fire_signed _)
  have hb : broadcastTo S512x1024 b broadcasts_S1x1024_S512x1024 (ix2 p q) = b (ix2 0 q) :=
    broadcastTo_1b_ab_apply b _ p q
  show (((((Ideal.cmp .ogt (s (ix2 p q) + broadcastTo S512x1024 b broadcasts_S1x1024_S512x1024 (ix2 p q)) Cert.Spec.zero32 : BitVec 1).setWidth 32).toInt : ℝ)) : EReal) = _
  rw [hb]

end Cert.KernelIdeal.Layers

end
-- ==== Proof.BlockSum.lean ====
/-
  The inner product over 4096 features is the sum of its four slices of 1024 features.

  Feature `k` below 4096 is `1024 · a + κ` for exactly one slice `a` below 4 and one offset `κ` below
  1024 (quotient and remainder by 1024).  Summing over all features is therefore summing over all
  pairs (slice, offset), and a sum over pairs is the sum over slices of the sums over offsets.  Only
  the commutativity and associativity of addition are used, which hold on the extended reals without
  any finiteness condition.
-/
import Mathlib.Data.EReal.Basic
import Mathlib.Data.Fintype.BigOperators
import Mathlib.Logic.Equiv.Fin.Basic
import Mathlib.Algebra.BigOperators.Group.Finset.Defs

open scoped BigOperators

namespace Cert.Spec

/-- A sum over 4096 features, slice by slice: pairs (slice `a`, offset `κ`) correspond one to one
    with the features `1024 · a + κ`. -/
theorem sum_four_blocks (f : Fin 4096 → EReal) :
    ∑ k : Fin 4096, f k = ∑ a : Fin 4, ∑ κ : Fin 1024, f ⟨1024 * a.val + κ.val, by have := a.isLt; have := κ.isLt; omega⟩ := by
  -- the double sum is one sum over pairs
  rw [← Fintype.sum_prod_type' (f := fun (a : Fin 4) (κ : Fin 1024) =>
    f ⟨1024 * a.val + κ.val, by have := a.isLt; have := κ.isLt; omega⟩)]
  -- pairs and features correspond: (a, κ) ↦ κ + 1024 · a
  refine (Fintype.sum_equiv (finProdFinEquiv : Fin 4 × Fin 1024 ≃ Fin 4096) _ _ fun x => ?_).symm
  refine congrArg f (Fin.ext ?_)
  show 1024 * x.1.val + x.2.val = x.2.val + 1024 * x.1.val
  exact Nat.add_comm _ _

end Cert.Spec
-- ==== Proof.KI.L0Value.lean ====
/-
  Layer 0's value: what the layer leaves in its output array.

  Fix a row tile i, a column tile j and, inside them, a row p and a unit q; write r = 512 i + p and
  u = 1024 j + q.  The contracted axis of 4096 features is walked in four quarters of 1024.  After the
  step that handles quarter a, the accumulator at (p, q) is the reset value plus the inner products of
  row r of the activations with row u of the weights over quarters 0 .. a (by induction on the point: a
  point at a later step has the same tile as the point before it).  After quarter 3 the four partial
  inner products are the whole inner product over the 4096 features (sums of extended reals may be
  regrouped freely, and the reset value is zero), and the tile written back there is its clamp at zero
  after the unit's bias is added: the first layer of the network at (r, u).  The tiles written back at
  the last steps cover the array: row r, unit u lies in the tile of i = r / 512, j = u / 1024.
-/
import proofs.«137112_j54778012893659_1_alg».proof.Proof.KI.L0Data
import proofs.«137112_j54778012893659_1_alg».proof.Proof.Spec
import proofs.«137112_j54778012893659_1_alg».proof.Proof.KI.PayIdx
import proofs.«137112_j54778012893659_1_alg».proof.Proof.BlockSum
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the layer reads, and its result -/

/-- The activations (8192 rows of 4096 features) and the weights (4096 units of 4096 coefficients) as the
    region finds them. -/
abbrev xarr0 (c : Dev nD) : Cert.Spec.Act := V c main_arg0
abbrev warr0 (c : Dev nD) : Cert.Spec.Wts := V c main_arg1
/-- The bias of unit `n`: the one row of the bias array. -/
abbrev bias0 (c : Dev nD) : Fin 4096 → EReal := fun n => V c main_v0 (ix2 0 n)
/-- The layer's result: the dense layer of those three, clamped below at zero. -/
abbrev G0 (c : Dev nD) : Cert.Spec.Act := Cert.Spec.hidden (V c main_arg0) (V c main_arg1) (fun n => V c main_v0 (ix2 0 n))

/-! ## Which tile each window is on at a point -/

/-- Point `t` is row tile `t / 16`, column tile `t / 4 % 4`, step `t % 4`: the activations are on (row tile,
    step), the weights on (column tile, step), the bias on (0, column tile), the output on (row tile, column tile). -/
theorem tileIdx0 : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-! ## A tile's element is the array's element at tile index × tile size + the place inside the tile -/

theorem xblk0_at (c : Dev nD) (t : Fin cfg0.N) (p : Fin 512) (κ : Fin 1024) (r : Fin 8192) (k : Fin 4096)
    (hr : r.val = 512 * (t.val / 16) + p.val) (hk : k.val = 1024 * (t.val % 4) + κ.val) :
    xblk0 V c t (ix2 p κ) = xarr0 V c (ix2 r k) := by
  obtain ⟨e0, e1, -⟩ := tileIdx0 t
  show V c main_arg0 (((cfg0.win 0).blk t).view.emb (ix2 p κ)) = V c main_arg0 (ix2 r k)
  refine congrArg (V c main_arg0) ?_
  funext a; apply Fin.ext
  match a with
  | ⟨0, _⟩ => show win0_0.index t (0 : Fin 2) * 512 + 1 * p.val = r.val; omega
  | ⟨1, _⟩ => show win0_0.index t (1 : Fin 2) * 1024 + 1 * κ.val = k.val; omega

theorem wblk0_at (c : Dev nD) (t : Fin cfg0.N) (q : Fin 1024) (κ : Fin 1024) (u : Fin 4096) (k : Fin 4096)
    (hu : u.val = 1024 * (t.val / 4 % 4) + q.val) (hk : k.val = 1024 * (t.val % 4) + κ.val) :
    wblk0 V c t (ix2 q κ) = warr0 V c (ix2 u k) := by
  obtain ⟨-, -, e2, e3, -⟩ := tileIdx0 t
  show V c main_arg1 (((cfg0.win 1).blk t).view.emb (ix2 q κ)) = V c main_arg1 (ix2 u k)
  refine congrArg (V c main_arg1) ?_
  funext a; apply Fin.ext
  match a with
  | ⟨0, _⟩ => show win0_1.index t (0 : Fin 2) * 1024 + 1 * q.val = u.val; omega
  | ⟨1, _⟩ => show win0_1.index t (1 : Fin 2) * 1024 + 1 * κ.val = k.val; omega

theorem bblk0_at (c : Dev nD) (t : Fin cfg0.N) (q : Fin 1024) (u : Fin 4096)
    (hu : u.val = 1024 * (t.val / 4 % 4) + q.val) :
    bblk0 V c t (ix2 0 q) = bias0 V c u := by
  obtain ⟨-, -, -, -, e4, e5, -⟩ := tileIdx0 t
  show V c main_v0 (((cfg0.win 2).blk t).view.emb (ix2 0 q)) = V c main_v0 (ix2 0 u)
  refine congrArg (V c main_v0) ?_
  funext a; apply Fin.ext
  match a with
  | ⟨0, _⟩ => show win0_2.index t (0 : Fin 2) * 1 + 1 * 0 = 0; omega
  | ⟨1, _⟩ => show win0_2.index t (1 : Fin 2) * 1024 + 1 * q.val = u.val; omega

/-! ## The inner product, a quarter of the contracted axis at a time -/

/-- Row `r` of the activations against row `u` of the weights over quarter `a` of the features. -/
def quarter0 (c : Dev nD) (r : Fin 8192) (u : Fin 4096) (a : ℕ) : EReal :=
  if h : a < 4 then ∑ κ : Fin 1024, xarr0 V c (ix2 r ⟨1024 * a + κ.val, by have := κ.isLt; omega⟩) * warr0 V c (ix2 u ⟨1024 * a + κ.val, by have := κ.isLt; omega⟩) else 0

/-- The same over quarters 0 .. a, summed in that order. -/
def upto0 (c : Dev nD) (r : Fin 8192) (u : Fin 4096) : ℕ → EReal
  | 0 => quarter0 V c r u 0
  | a + 1 => upto0 c r u a + quarter0 V c r u (a + 1)

/-- A point's block product at (p, q) is the quarter of its step, for the row and unit its tiles put there. -/
theorem blockDot0 (c : Dev nD) (t : Fin cfg0.N) (p : Fin 512) (q : Fin 1024) (r : Fin 8192) (u : Fin 4096)
    (hr : r.val = 512 * (t.val / 16) + p.val) (hu : u.val = 1024 * (t.val / 4 % 4) + q.val) :
    ∑ κ : Fin 1024, xblk0 V c t (ix2 p κ) * wblk0 V c t (ix2 q κ) = quarter0 V c r u (t.val % 4) := by
  have h4 : t.val % 4 < 4 := Nat.mod_lt _ (by decide)
  unfold quarter0; rw [dif_pos h4]
  refine Finset.sum_congr rfl fun κ _ => ?_
  rw [xblk0_at V c t p κ r ⟨1024 * (t.val % 4) + κ.val, by have := κ.isLt; omega⟩ hr rfl,
    wblk0_at V c t q κ u ⟨1024 * (t.val % 4) + κ.val, by have := κ.isLt; omega⟩ hu rfl]

/-- All four quarters are the whole inner product. -/
theorem upto0_three (c : Dev nD) (r : Fin 8192) (u : Fin 4096) :
    upto0 V c r u 3 = ∑ k : Fin 4096, xarr0 V c (ix2 r k) * warr0 V c (ix2 u k) := by
  rw [Cert.Spec.sum_four_blocks (fun k => xarr0 V c (ix2 r k) * warr0 V c (ix2 u k)), Fin.sum_univ_four]
  show ((quarter0 V c r u 0 + quarter0 V c r u 1) + quarter0 V c r u 2) + quarter0 V c r u 3 = _
  unfold quarter0
  rw [dif_pos (by decide : 0 < 4), dif_pos (by decide : 1 < 4), dif_pos (by decide : 2 < 4), dif_pos (by decide : 3 < 4)]
  rfl

/-! ## The accumulator after each point -/

/-- After the point at position `n` the accumulator at (p, q) is the reset value plus the quarters up to
    the point's step, for the row and unit the point's tiles put at (p, q). -/
theorem accAt0_at (c : Dev nD) : ∀ (n : ℕ) (hn : n < cfg0.N) (p : Fin 512) (q : Fin 1024) (r : Fin 8192) (u : Fin 4096),
    r.val = 512 * (n / 16) + p.val → u.val = 1024 * (n / 4 % 4) + q.val →
    accAt0 V c n hn (ix2 p q) = Cert.Spec.zero32 + upto0 V c r u (n % 4)
  | 0, hn, p, q, r, u, hr, hu => by
    refine (congrFun (accAt0_first V c ⟨0, hn⟩ rfl) (ix2 p q)).trans ?_
    refine (pay2_0_at (xblk0 V c ⟨0, hn⟩) (wblk0 V c ⟨0, hn⟩) (k0_pay1 (F := Ideal)) p q).trans ?_
    rw [pay1_0_at, blockDot0 V c ⟨0, hn⟩ p q r u hr hu]
    rfl
  | n + 1, hn, p, q, r, u, hr, hu => by
    by_cases h0 : (n + 1) % 4 = 0
    · refine (congrFun (accAt0_first V c ⟨n + 1, hn⟩ h0) (ix2 p q)).trans ?_
      refine (pay2_0_at (xblk0 V c ⟨n + 1, hn⟩) (wblk0 V c ⟨n + 1, hn⟩) (k0_pay1 (F := Ideal)) p q).trans ?_
      rw [pay1_0_at, blockDot0 V c ⟨n + 1, hn⟩ p q r u hr hu]
      show Cert.Spec.zero32 + quarter0 V c r u ((n + 1) % 4) = Cert.Spec.zero32 + upto0 V c r u ((n + 1) % 4)
      rw [h0]; rfl
    · have hr' : r.val = 512 * (n / 16) + p.val := by omega
      have hu' : u.val = 1024 * (n / 4 % 4) + q.val := by omega
      have ih := accAt0_at c n (Nat.lt_of_succ_lt hn) p q r u hr' hu'
      refine (congrFun (accAt0_next V c ⟨n + 1, hn⟩ h0) (ix2 p q)).trans ?_
      refine (pay2_0_at (xblk0 V c ⟨n + 1, hn⟩) (wblk0 V c ⟨n + 1, hn⟩) (accAt0 V c n (Nat.lt_of_succ_lt hn)) p q).trans ?_
      rw [ih, blockDot0 V c ⟨n + 1, hn⟩ p q r u hr hu]
      have hk : (n + 1) % 4 = n % 4 + 1 := by omega
      show Cert.Spec.zero32 + upto0 V c r u (n % 4) + quarter0 V c r u ((n + 1) % 4) = Cert.Spec.zero32 + upto0 V c r u ((n + 1) % 4)
      rw [hk, add_assoc]; rfl

/-! ## The tile written back at a last step -/

theorem outAt0_at (c : Dev nD) (t : Fin cfg0.N) (h3 : t.val % 4 = 3) (p : Fin 512) (q : Fin 1024) (r : Fin 8192) (u : Fin 4096)
    (hr : r.val = 512 * (t.val / 16) + p.val) (hu : u.val = 1024 * (t.val / 4 % 4) + q.val) :
    outAt0 V c t (ix2 p q) = G0 V c (ix2 r u) := by
  unfold outAt0
  refine (pay3_0_at (accAt0 V c t.val t.isLt) (bblk0 V c t) p q).trans ?_
  have hz : ∀ S : EReal, Cert.Spec.zero32 + S = S := fun S => by rw [Cert.Spec.zero32_eq, zero_add]
  rw [accAt0_at V c t.val t.isLt p q r u hr hu, h3, bblk0_at V c t q u hu, upto0_three, hz]
  rfl

/-! ## From tiles to the array -/

/-- What a last step writes back is its tile of the layer's result. -/
theorem flushed0_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have hN : t.val < 256 := lt_of_lt_of_eq t.isLt (show cfg0.N = 256 from N_0)
  obtain ⟨-, -, -, -, -, -, e6, e7⟩ := tileIdx0 t
  show (cfg0.win 3).cut (grid0.coords t) ((dat0 V c).after 3 t) = _
  rw [after0_3]
  funext j
  have hp : (j 0).val < 512 := (j 0).isLt
  have hq : (j 1).val < 1024 := (j 1).isLt
  have hx : (cfg0.win 3).xinj (grid0.coords t) j = ix2 (⟨(j 0).val, hp⟩ : Fin 512) (⟨(j 1).val, hq⟩ : Fin 1024) := by
    funext a
    match a with
    | ⟨0, _⟩ => rfl
    | ⟨1, _⟩ => rfl
  have hemb : ((cfg0.win 3).blk t).view.emb j
      = ix2 (⟨512 * (t.val / 16) + (j 0).val, by omega⟩ : Fin 8192) (⟨1024 * (t.val / 4 % 4) + (j 1).val, by omega⟩ : Fin 4096) := by
    funext a; apply Fin.ext
    match a with
    | ⟨0, _⟩ => show win0_3.index t (0 : Fin 2) * 512 + 1 * (j 0).val = 512 * (t.val / 16) + (j 0).val; omega
    | ⟨1, _⟩ => show win0_3.index t (1 : Fin 2) * 1024 + 1 * (j 1).val = 1024 * (t.val / 4 % 4) + (j 1).val; omega
  show outAt0 V c t ((cfg0.win 3).xinj (grid0.coords t) j) = G0 V c (((cfg0.win 3).blk t).view.emb j)
  rw [hx, hemb]
  exact outAt0_at V c t h3 _ _ _ _ rfl rfl

/-- An index of the array is in point `t`'s output tile iff each coordinate is in the tile's range. -/
theorem mem_blk0 (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Every index of the array is in the tile some last step writes back. -/
theorem cover0 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  let t : Fin cfg0.N := ⟨((i 0).val / 512 * 4 + (i 1).val / 1024) * 4 + 3, by omega⟩
  have ht : t.val = ((i 0).val / 512 * 4 + (i 1).val / 1024) * 4 + 3 := rfl
  obtain ⟨-, -, -, -, -, -, e6, e7⟩ := tileIdx0 t
  refine ⟨t, (flush0_3 t).mpr (by omega), ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE LAYER'S VALUE: after the region the output array holds the first layer of the network. -/
theorem layer0_value (V : (c : Dev nD) → (b : Ref sig .tc) → Buf (Elt Ideal) ((c : Thread nD τ).loc b)) (c : Dev nD) :
    (dat0 (F := Ideal) V c).arrAt 3 cfg0.N = Cert.Spec.hidden (V c main_arg0) (V c main_arg1) (fun n => V c main_v0 (ix2 0 n)) :=
  (dat0 (F := Ideal) V c).arrAt_eq_of_cover 3 (G0 V c) (fun t hf => flushed0_eq V c t hf) cover0

end Cert.KernelIdeal.Layers

end
-- ==== Proof.KI.L1Value.lean ====
/-
  The value of the second dense layer.

  For the tile with row tile i and column tile j, the accumulator after the point with contraction
  block k holds, at row p and unit q, the zero pattern's value plus the partial inner products of
  blocks 0..k:  ∑ κ, a[512 i + p, 1024 k' + κ] · w[1024 j + q, 1024 k' + κ]  for k' ≤ k.  This is proved
  by induction on the point's number (a point inside a tile continues from the point before, which
  is in the same tile).  After block 3 the four partial sums are the whole inner product over the
  4096 features — extended-real addition is associative and the zero pattern's value is 0 — and the
  block written back there is the threshold of that plus the unit's bias.  The sixty-four blocks
  written back at the closing points tile the output array: row r, unit n lies in the block of
  i = r / 512, j = n / 1024.
-/
import proofs.«137112_j54778012893659_1_alg».proof.Proof.KI.L1Data
import proofs.«137112_j54778012893659_1_alg».proof.Proof.Spec
import proofs.«137112_j54778012893659_1_alg».proof.Proof.KI.PayIdx
import proofs.«137112_j54778012893659_1_alg».proof.Proof.BlockSum
import Idealize.ShloMosaic.Lib.Pipeline.Value
import Idealize.ShloMosaic.Lib.ValueIdx

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped BigOperators
open Idealize.ShloMosaic.ValueIdx

theorem zeros2 : (![0, 0] : Fin 2 → Nat) = fun _ => 0 := funext fun a => by fin_cases a <;> rfl

/-! ## What each case leaves, as values -/

section Pieces

/-- Pieces read back over arbitrary prior contents are their canonical form. -/
theorem accOf_canon (L : List (View.Piece (Elt F) S512x1024 .f32)) : accOf L = View.canon L :=
  View.read_writes_junk_eq_canon _ L
theorem outOf_canon (L : List (View.Piece (Elt F) S512x1024 .f32)) : outOf L = View.canon L :=
  View.read_writes_junk_eq_canon _ L

/-- Where a tile starts the accumulator ends at the zero block plus the first partial product. -/
theorem acc_first (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : clears1 i) (hc1 : ¬closes1 i)
    (x0 : Vec F S512x1024 .bf16) (x1 : Vec F S1024x1024 .f32) (x2 : Vec F S1x1024 .f32) :
    accOf (run1_first c i arg3 harg3 arg4 harg4 arg5 harg5 arg6 harg6 arg7 harg7 hc0 hc1 x0 x1 x2).2.1 = k1_pay2 x0 x1 k1_pay1 := by
  rw [accOf_canon]
  unfold run1_first
  dsimp only
  sl_unfold_words
  rw [View.canon_cons_unit_zero (S := S512x1024) zeros2, View.readCov_unit_zero (S := S512x1024) _ zeros2]
  simp only [View.readAt_eq_ld, harg3.read_unread, harg4.read_unread, View.ld_unit_zero (S := S512x1024) zeros2,
    View.ld_unit_zero (S := S1024x1024) zeros2]

/-- Inside a tile the accumulator ends at what it held plus this block's partial product. -/
theorem acc_middle (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : ¬closes1 i)
    (x0 : Vec F S512x1024 .bf16) (x1 : Vec F S1024x1024 .f32) (x2 : Vec F S1x1024 .f32) (xs : Vec F S512x1024 .f32) :
    accOf (run1_middle c i arg3 harg3 arg4 harg4 arg5 harg5 arg6 harg6 arg7 harg7 hc0 hc1 x0 x1 x2 xs).2.1 = k1_pay2 x0 x1 xs := by
  rw [accOf_canon]
  unfold run1_middle
  dsimp only
  sl_unfold_words
  rw [View.canon_unit_zero (S := S512x1024) zeros2]
  simp only [View.readAt_eq_ld, harg3.read_unread, harg4.read_unread, harg7.read_unread, View.ld_unit_zero (S := S512x1024) zeros2,
    View.ld_unit_zero (S := S1024x1024) zeros2]

/-- Where a tile ends the accumulator does the same, -/
theorem acc_last (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : closes1 i)
    (x0 : Vec F S512x1024 .bf16) (x1 : Vec F S1024x1024 .f32) (x2 : Vec F S1x1024 .f32) (xs : Vec F S512x1024 .f32) :
    accOf (run1_last c i arg3 harg3 arg4 harg4 arg5 harg5 arg6 harg6 arg7 harg7 hc0 hc1 x0 x1 x2 xs).2.1 = k1_pay2 x0 x1 xs := by
  rw [accOf_canon]
  unfold run1_last
  dsimp only
  sl_unfold_words
  rw [View.canon_unit_zero (S := S512x1024) zeros2]
  simp only [View.readAt_eq_ld, harg3.read_unread, harg4.read_unread, harg7.read_unread, View.ld_unit_zero (S := S512x1024) zeros2,
    View.ld_unit_zero (S := S1024x1024) zeros2]

/-- and the output block is the threshold of the finished sum plus the bias row. -/
theorem out_last (c : Dev nD) (i : grid1.Coords)
    (arg3 : Memref sig .tc .vmem S512x1024 .bf16) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole) (hc0 : ¬clears1 i) (hc1 : closes1 i)
    (x0 : Vec F S512x1024 .bf16) (x1 : Vec F S1024x1024 .f32) (x2 : Vec F S1x1024 .f32) (xs : Vec F S512x1024 .f32) :
    outOf (run1_last c i arg3 harg3 arg4 harg4 arg5 harg5 arg6 harg6 arg7 harg7 hc0 hc1 x0 x1 x2 xs).1 = k1_pay3 (k1_pay2 x0 x1 xs) x2 := by
  rw [outOf_canon]
  unfold run1_last
  dsimp only
  sl_unfold_words
  rw [View.canon_unit_zero (S := S512x1024) zeros2, View.readCov_unit_zero (S := S512x1024) _ zeros2]
  simp only [View.readAt_eq_ld, harg3.read_unread, harg4.read_unread, harg5.read_unread, harg7.read_unread,
    View.ld_unit_zero (S := S512x1024) zeros2, View.ld_unit_zero (S := S1024x1024) zeros2, View.ld_unit_zero (S := S1x1024) zeros2]

end Pieces

/-! ## Where a point's blocks sit in their arrays -/

section Blocks

variable (V : (c : Dev nD) → (b : Ref sig .tc) → Buf (Elt F) ((c : Thread nD τ).loc b))

/-- The block indices at the point numbered `t`, whose row tile is `t / 16`, column tile `t / 4 % 4` and contraction
    block `t % 4`: activations (row tile, contraction block); weights (column tile, contraction block); bias
    (0, column tile); output (row tile, column tile).  Decided over the grid's 256 points. -/
theorem index_facts : ∀ t : Fin cfg1.N,
    (win1_0.index t (0 : Fin 2) = t.val / 16 ∧ win1_0.index t (1 : Fin 2) = t.val % 4)
    ∧ (win1_1.index t (0 : Fin 2) = t.val / 4 % 4 ∧ win1_1.index t (1 : Fin 2) = t.val % 4)
    ∧ (win1_2.index t (0 : Fin 2) = 0 ∧ win1_2.index t (1 : Fin 2) = t.val / 4 % 4)
    ∧ (win1_3.index t (0 : Fin 2) = t.val / 16 ∧ win1_3.index t (1 : Fin 2) = t.val / 4 % 4) :=
  (by decide +kernel : ∀ t : Fin grid1.N,
    (win1_0.index t (0 : Fin 2) = t.val / 16 ∧ win1_0.index t (1 : Fin 2) = t.val % 4)
    ∧ (win1_1.index t (0 : Fin 2) = t.val / 4 % 4 ∧ win1_1.index t (1 : Fin 2) = t.val % 4)
    ∧ (win1_2.index t (0 : Fin 2) = 0 ∧ win1_2.index t (1 : Fin 2) = t.val / 4 % 4)
    ∧ (win1_3.index t (0 : Fin 2) = t.val / 16 ∧ win1_3.index t (1 : Fin 2) = t.val / 4 % 4))

/-- Row `p` of row tile `i` in the 8192-row arrays (total in `i`: reduced modulo the extent, which changes nothing
    for the sixteen real tiles). -/
def rowOf (i : ℕ) (p : Fin 512) : Fin 8192 := ⟨(512 * i + p.val) % 8192, Nat.mod_lt _ (by decide)⟩
/-- Column `q` of 1024-block `j` in a 4096-long axis (a unit of column tile `j`, or a feature of contraction block `j`). -/
def colOf (j : ℕ) (q : Fin 1024) : Fin 4096 := ⟨(1024 * j + q.val) % 4096, Nat.mod_lt _ (by decide)⟩

/-- The three arrays the region reads, at their literal types. -/
abbrev act1 (c : Dev nD) : Vec F S8192x4096 .bf16 := V c main_v2
abbrev wts1 (c : Dev nD) : Vec F S4096x4096 .f32 := V c main_arg3
abbrev bias1 (c : Dev nD) : Vec F S1x4096 .f32 := V c main_v1

/-- The activation block's element (p, κ) is the array's at (row p of the row tile, feature κ of the contraction block). -/
theorem ablk_at (c : Dev nD) (t : Fin cfg1.N) (p : Fin 512) (κ : Fin 1024) :
    ablk1 V c t (ix2 p κ) = act1 V c (ix2 (rowOf (t.val / 16) p) (colOf (t.val % 4) κ)) := by
  obtain ⟨⟨h0, h1⟩, -⟩ := index_facts t
  have hN : t.val < 256 := lt_of_lt_of_eq t.isLt N_1
  show ((cfg1.win 0).blk t).view.read (Elt F) (V c (Pipeline.arrRef spec1 0)) (ix2 p κ) = _
  rw [View.read_apply]
  show V c main_v2 _ = V c main_v2 _
  refine congrArg (V c main_v2) ?_
  funext a
  apply Fin.ext
  match a with
  | ⟨0, _⟩ =>
    show win1_0.index t (0 : Fin 2) * 512 + 1 * p.val = (512 * (t.val / 16) + p.val) % 8192
    rw [h0]; have := p.isLt; omega
  | ⟨1, _⟩ =>
    show win1_0.index t (1 : Fin 2) * 1024 + 1 * κ.val = (1024 * (t.val % 4) + κ.val) % 4096
    rw [h1]; have := κ.isLt; omega

/-- The weight block's element (q, κ) is the array's at (unit q of the column tile, feature κ of the contraction block). -/
theorem wblk_at (c : Dev nD) (t : Fin cfg1.N) (q : Fin 1024) (κ : Fin 1024) :
    wblk1 V c t (ix2 q κ) = wts1 V c (ix2 (colOf (t.val / 4 % 4) q) (colOf (t.val % 4) κ)) := by
  obtain ⟨-, ⟨h0, h1⟩, -⟩ := index_facts t
  show ((cfg1.win 1).blk t).view.read (Elt F) (V c (Pipeline.arrRef spec1 1)) (ix2 q κ) = _
  rw [View.read_apply]
  show V c main_arg3 _ = V c main_arg3 _
  refine congrArg (V c main_arg3) ?_
  funext a
  apply Fin.ext
  match a with
  | ⟨0, _⟩ =>
    show win1_1.index t (0 : Fin 2) * 1024 + 1 * q.val = (1024 * (t.val / 4 % 4) + q.val) % 4096
    rw [h0]; have := q.isLt; omega
  | ⟨1, _⟩ =>
    show win1_1.index t (1 : Fin 2) * 1024 + 1 * κ.val = (1024 * (t.val % 4) + κ.val) % 4096
    rw [h1]; have := κ.isLt; omega

/-- The bias row's element q is the bias array's at unit q of the column tile. -/
theorem bblk_at (c : Dev nD) (t : Fin cfg1.N) (q : Fin 1024) :
    bblk1 V c t (ix2 0 q) = bias1 V c (ix2 0 (colOf (t.val / 4 % 4) q)) := by
  obtain ⟨-, -, ⟨h0, h1⟩, -⟩ := index_facts t
  show ((cfg1.win 2).blk t).view.read (Elt F) (V c (Pipeline.arrRef spec1 2)) (ix2 0 q) = _
  rw [View.read_apply]
  show V c main_v1 _ = V c main_v1 _
  refine congrArg (V c main_v1) ?_
  funext a
  apply Fin.ext
  match a with
  | ⟨0, _⟩ =>
    show win1_2.index t (0 : Fin 2) * 1 + 1 * 0 = 0
    rw [h0]
  | ⟨1, _⟩ =>
    show win1_2.index t (1 : Fin 2) * 1024 + 1 * q.val = (1024 * (t.val / 4 % 4) + q.val) % 4096
    rw [h1]; have := q.isLt; omega

/-- Any contents of the output array, read through the output block of point `t` at (p, q), is its element at
    (row p of the row tile, unit q of the column tile). -/
theorem oblk_at (c : Dev nD) (t : Fin cfg1.N) (G : Vec F S8192x4096 .f32) (p : Fin 512) (q : Fin 1024) :
    (((cfg1.win 3).blk t).view.read (Elt F) (G : Buf (Elt F) ((cfg1.win 3).arr.view.loc (c.tc : Thread nD τ))) : Vec F S512x1024 .f32) (ix2 p q)
      = G (ix2 (rowOf (t.val / 16) p) (colOf (t.val / 4 % 4) q)) := by
  obtain ⟨-, -, -, ⟨h0, h1⟩⟩ := index_facts t
  rw [View.read_apply]
  show G _ = G _
  refine congrArg G ?_
  funext a
  apply Fin.ext
  match a with
  | ⟨0, _⟩ =>
    show win1_3.index t (0 : Fin 2) * 512 + 1 * p.val = (512 * (t.val / 16) + p.val) % 8192
    rw [h0]; have := p.isLt; have hN : t.val < 256 := lt_of_lt_of_eq t.isLt N_1; omega
  | ⟨1, _⟩ =>
    show win1_3.index t (1 : Fin 2) * 1024 + 1 * q.val = (1024 * (t.val / 4 % 4) + q.val) % 4096
    rw [h1]; have := q.isLt; omega

end Blocks

/-! ## The accumulator is the partial inner product -/

section Sums

/-- Contraction block `k`'s share of the inner product of activation row `r` with weight row `n`. -/
def part (a : Vec Ideal S8192x4096 .bf16) (w : Vec Ideal S4096x4096 .f32) (r : Fin 8192) (n : Fin 4096) (k : ℕ) : EReal :=
  ∑ κ : Fin 1024, a (ix2 r (colOf k κ)) * w (ix2 n (colOf k κ))

/-- The zero pattern's value plus the shares of blocks 0 to `k`, added in that order. -/
def upto (a : Vec Ideal S8192x4096 .bf16) (w : Vec Ideal S4096x4096 .f32) (r : Fin 8192) (n : Fin 4096) : ℕ → EReal
  | 0 => Cert.Spec.zero32 + part a w r n 0
  | k + 1 => upto a w r n k + part a w r n (k + 1)

/-- After all four blocks that is the whole inner product: the zero pattern's value is 0, and the 4096 features
    are the four blocks of 1024 in order. -/
theorem upto_three (a : Vec Ideal S8192x4096 .bf16) (w : Vec Ideal S4096x4096 .f32) (r : Fin 8192) (n : Fin 4096) :
    upto a w r n 3 = ∑ k : Fin 4096, a (ix2 r k) * w (ix2 n k) := by
  have hp : ∀ (k : ℕ) (hk : k < 4), part a w r n k
      = ∑ κ : Fin 1024, a (ix2 r ⟨1024 * k + κ.val, by have := κ.isLt; omega⟩) * w (ix2 n ⟨1024 * k + κ.val, by have := κ.isLt; omega⟩) :=
    fun k hk => Finset.sum_congr rfl fun κ _ => by
      have e : colOf k κ = ⟨1024 * k + κ.val, by have := κ.isLt; omega⟩ :=
        Fin.ext (Nat.mod_eq_of_lt (by have := κ.isLt; omega))
      rw [e]
  refine Eq.trans ?_ (Cert.Spec.sum_four_blocks (fun k => a (ix2 r k) * w (ix2 n k))).symm
  rw [Fin.sum_univ_four]
  show ((Cert.Spec.zero32 + part a w r n 0) + part a w r n 1 + part a w r n 2) + part a w r n 3 = _
  rw [Cert.Spec.zero32_eq, zero_add, hp 0 (by decide), hp 1 (by decide), hp 2 (by decide), hp 3 (by decide)]
  rfl

variable (V : (c : Dev nD) → (b : Ref sig .tc) → Buf (Elt Ideal) ((c : Thread nD τ).loc b))

/-- One more block: the product of the point's activation and weight blocks at (p, q) is the block's share of the
    inner product of the tile's row p with the tile's unit q. -/
theorem block_share (c : Dev nD) (t : Fin cfg1.N) (p : Fin 512) (q : Fin 1024) :
    ∑ κ : Fin 1024, ablk1 V c t (ix2 p κ) * wblk1 V c t (ix2 q κ)
      = part (act1 V c) (wts1 V c) (rowOf (t.val / 16) p) (colOf (t.val / 4 % 4) q) (t.val % 4) :=
  Finset.sum_congr rfl fun κ _ => by rw [ablk_at V c t p κ, wblk_at V c t q κ]

/-- Where a tile starts the accumulator holds the zero pattern's value plus the first share. -/
theorem acc_start (c : Dev nD) (t : Fin cfg1.N) (h0 : t.val % 4 = 0) (p : Fin 512) (q : Fin 1024) :
    accAt V c t.val t.isLt (ix2 p q)
      = Cert.Spec.zero32 + part (act1 V c) (wts1 V c) (rowOf (t.val / 16) p) (colOf (t.val / 4 % 4) q) (t.val % 4) := by
  rw [accAt_eq V c t, step1_first V c t _ h0]
  dsimp only
  unfold firstAt
  rw [acc_first]
  refine (pay2_1_at (ablk1 V c t) (wblk1 V c t) (k1_pay1 (F := Ideal)) p q).trans ?_
  rw [pay1_1_at, block_share]

/-- Elsewhere it holds what the point before left plus this block's share. -/
theorem acc_cont (c : Dev nD) (t : Fin cfg1.N) (h0 : ¬t.val % 4 = 0) (p : Fin 512) (q : Fin 1024) :
    accAt V c t.val t.isLt (ix2 p q)
      = accAt V c (t.val - 1) (Nat.lt_of_le_of_lt (Nat.sub_le _ _) t.isLt) (ix2 p q)
        + part (act1 V c) (wts1 V c) (rowOf (t.val / 16) p) (colOf (t.val / 4 % 4) q) (t.val % 4) := by
  have hz : t.val ≠ 0 := fun h => h0 (by rw [h])
  rw [accAt_eq V c t, accBefore_pos V c t.val t.isLt hz]
  by_cases h1 : t.val % 4 = 3
  · rw [step1_last V c t _ h0 h1]
    dsimp only
    unfold lastAt
    rw [acc_last]
    refine (pay2_1_at (ablk1 V c t) (wblk1 V c t) _ p q).trans ?_
    rw [block_share]
  · rw [step1_middle V c t _ h0 h1]
    dsimp only
    unfold middleAt
    rw [acc_middle]
    refine (pay2_1_at (ablk1 V c t) (wblk1 V c t) _ p q).trans ?_
    rw [block_share]

/-- THE INVARIANT: after the point numbered `n` the accumulator holds, at (p, q), the zero pattern's value plus the
    shares of contraction blocks 0 to `n % 4` of the inner product of the tile's row p with its unit q.  By
    induction on `n`: a point that does not start a tile continues the point before, which lies in the same tile. -/
theorem acc_eq (c : Dev nD) : ∀ (n : ℕ) (hn : n < cfg1.N) (p : Fin 512) (q : Fin 1024),
    accAt V c n hn (ix2 p q) = upto (act1 V c) (wts1 V c) (rowOf (n / 16) p) (colOf (n / 4 % 4) q) (n % 4) := by
  intro n
  induction n with
  | zero => intro hn p q; exact acc_start V c ⟨0, hn⟩ rfl p q
  | succ n ih =>
    intro hn p q
    by_cases h0 : (n + 1) % 4 = 0
    · rw [h0]; exact (acc_start V c ⟨n + 1, hn⟩ h0 p q).trans (by rw [show (⟨n + 1, hn⟩ : Fin cfg1.N).val = n + 1 from rfl, h0]; rfl)
    · refine (acc_cont V c ⟨n + 1, hn⟩ h0 p q).trans ?_
      show accAt V c n _ (ix2 p q) + part _ _ (rowOf ((n + 1) / 16) p) (colOf ((n + 1) / 4 % 4) q) ((n + 1) % 4) = _
      rw [ih (Nat.lt_of_succ_lt hn) p q, show (n + 1) / 16 = n / 16 from by omega, show (n + 1) / 4 % 4 = n / 4 % 4 from by omega,
        show (n + 1) % 4 = n % 4 + 1 from by omega]
      rfl

/-! ## The block written back where a tile ends -/

/-- The bias as a function of the unit. -/
abbrev biasFn (c : Dev nD) : Fin 4096 → EReal := fun n => V c main_v1 (ix2 0 n)

/-- At a point that ends a tile the output window holds, at (p, q), the second layer's value at the tile's row p and
    unit q: the finished inner product plus the unit's bias, thresholded. -/
theorem out_value (c : Dev nD) (t : Fin cfg1.N) (h3 : t.val % 4 = 3) (p : Fin 512) (q : Fin 1024) :
    outAt V c t (ix2 p q)
      = Cert.Spec.fire (Cert.Spec.dense (V c main_v2) (V c main_arg3) (biasFn V c) (rowOf (t.val / 16) p) (colOf (t.val / 4 % 4) q)) := by
  have h0 : ¬t.val % 4 = 0 := by omega
  have hz : t.val ≠ 0 := fun h => h0 (by rw [h])
  unfold outAt
  rw [step1_last V c t _ h0 h3]
  dsimp only
  unfold lastAt
  rw [out_last]
  refine (pay3_1_at _ (bblk1 V c t) p q).trans ?_
  refine congrArg Cert.Spec.fire ?_
  unfold Cert.Spec.dense
  rw [bblk_at V c t q]
  refine congrArg (· + V c main_v1 (ix2 0 (colOf (t.val / 4 % 4) q))) ?_
  refine (pay2_1_at (ablk1 V c t) (wblk1 V c t) _ p q).trans ?_
  rw [block_share, accBefore_pos V c t.val t.isLt hz, acc_eq V c (t.val - 1) _ p q,
    show (t.val - 1) / 16 = t.val / 16 from by omega, show (t.val - 1) / 4 % 4 = t.val / 4 % 4 from by omega,
    show (t.val - 1) % 4 = 2 from by omega, h3]
  exact upto_three (act1 V c) (wts1 V c) _ _

end Sums

/-! ## The output array after the region -/

section Final

variable (V : (c : Dev nD) → (b : Ref sig .tc) → Buf (Elt Ideal) ((c : Thread nD τ).loc b))

/-- The second layer's output, as contents of the output array. -/
abbrev target1 (c : Dev nD) : Vec Ideal S8192x4096 .f32 :=
  Cert.Spec.fired (V c main_v2) (V c main_arg3) (fun n => V c main_v1 (ix2 0 n))

/-- Every block of the output array is whole: 512 rows by 1024 units.  Decided over the grid. -/
theorem oblk_size : ∀ t : Fin cfg1.N,
    win1_3.xsize (grid1.coords t) (0 : Fin 2) = 512 ∧ win1_3.xsize (grid1.coords t) (1 : Fin 2) = 1024 :=
  (by decide +kernel : ∀ t : Fin grid1.N,
    win1_3.xsize (grid1.coords t) (0 : Fin 2) = 512 ∧ win1_3.xsize (grid1.coords t) (1 : Fin 2) = 1024)

/-- What a closing point leaves in the output window is its block of the target. -/
theorem out_block (c : Dev nD) (t : Fin cfg1.N) (h3 : t.val % 4 = 3) :
    outAt V c t
      = (((cfg1.win 3).blk t).view.read (Elt Ideal) (target1 V c : Buf (Elt Ideal) ((cfg1.win 3).arr.view.loc (c.tc : Thread nD τ))) : Vec Ideal S512x1024 .f32) := by
  funext y
  obtain ⟨p, q, rfl⟩ : ∃ (p : Fin 512) (q : Fin 1024), y = ix2 p q := ⟨y 0, y 1, eq_ix2 y⟩
  rw [oblk_at (F := Ideal) c t (target1 V c) p q]
  exact out_value V c t h3 p q

/-- So every write-back writes its block of the target. -/
theorem flushed_eq1 (c : Dev nD) (t : Fin cfg1.N) (hf : (cfg1.win 3).flush t = true) :
    (dat1 V c).flushed 3 t
      = ((cfg1.win 3).blk t).view.read (Elt Ideal) (target1 V c : Buf (Elt Ideal) ((cfg1.win 3).arr.view.loc (c.tc : Thread nD τ))) := by
  have h3 : t.val % 4 = 3 := (flush1_3 t).mp hf
  show (cfg1.win 3).cut (grid1.coords t) ((dat1 V c).after 3 t) = _
  rw [after1_3]
  exact out_block V c t h3

/-- The blocks written back tile the output array: row r, unit n is in the block of the point that ends the tile
    with row tile r / 512 and column tile n / 1024. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hr : (i 0 : ℕ) < 8192 := (i 0).isLt
  have hn : (i 1 : ℕ) < 4096 := (i 1).isLt
  have hN : cfg1.N = 256 := N_1
  have hlt : 16 * ((i 0 : ℕ) / 512) + 4 * ((i 1 : ℕ) / 1024) + 3 < cfg1.N := by rw [hN]; omega
  refine ⟨⟨16 * ((i 0 : ℕ) / 512) + 4 * ((i 1 : ℕ) / 1024) + 3, hlt⟩, (flush1_3 _).mpr (by dsimp only; omega), ?_⟩
  obtain ⟨-, -, -, ⟨h0, h1⟩⟩ := index_facts ⟨16 * ((i 0 : ℕ) / 512) + 4 * ((i 1 : ℕ) / 1024) + 3, hlt⟩
  obtain ⟨s0, s1⟩ := oblk_size ⟨16 * ((i 0 : ℕ) / 512) + 4 * ((i 1 : ℕ) / 1024) + 3, hlt⟩
  show i ∈ ((View.whole main_v3).slice (win1_3.rect ⟨16 * ((i 0 : ℕ) / 512) + 4 * ((i 1 : ℕ) / 1024) + 3, hlt⟩)).set
  rw [View.set_slice_whole, Rect.mem_set_unit]
  intro a
  match a with
  | ⟨0, _⟩ =>
    show win1_3.index ⟨16 * ((i 0 : ℕ) / 512) + 4 * ((i 1 : ℕ) / 1024) + 3, hlt⟩ (0 : Fin 2) * 512 ≤ (i 0 : ℕ)
      ∧ (i 0 : ℕ) < win1_3.index ⟨16 * ((i 0 : ℕ) / 512) + 4 * ((i 1 : ℕ) / 1024) + 3, hlt⟩ (0 : Fin 2) * 512
          + win1_3.xsize (grid1.coords ⟨16 * ((i 0 : ℕ) / 512) + 4 * ((i 1 : ℕ) / 1024) + 3, hlt⟩) (0 : Fin 2)
    rw [h0, s0]; dsimp only; omega
  | ⟨1, _⟩ =>
    show win1_3.index ⟨16 * ((i 0 : ℕ) / 512) + 4 * ((i 1 : ℕ) / 1024) + 3, hlt⟩ (1 : Fin 2) * 1024 ≤ (i 1 : ℕ)
      ∧ (i 1 : ℕ) < win1_3.index ⟨16 * ((i 0 : ℕ) / 512) + 4 * ((i 1 : ℕ) / 1024) + 3, hlt⟩ (1 : Fin 2) * 1024
          + win1_3.xsize (grid1.coords ⟨16 * ((i 0 : ℕ) / 512) + 4 * ((i 1 : ℕ) / 1024) + 3, hlt⟩) (1 : Fin 2)
    rw [h1, s1]; dsimp only; omega

end Final

/-- THE SECOND LAYER'S VALUE: entered at contents `V`, the region leaves in its output array the thresholded dense
    layer of the activations it found, the weights and the bias. -/
theorem layer1_value (V : (c : Dev nD) → (b : Ref sig .tc) → Buf (Elt Ideal) ((c : Thread nD τ).loc b)) (c : Dev nD) :
    (dat1 (F := Ideal) V c).arrAt 3 cfg1.N = Cert.Spec.fired (V c main_v2) (V c main_arg3) (fun n => V c main_v1 (ix2 0 n)) :=
  (dat1 (F := Ideal) V c).arrAt_eq_of_cover 3 (target1 V c) (flushed_eq1 V c) (cover1 c)

end Cert.KernelIdeal.Layers

end
-- ==== Proof.KI.Result.lean ====
/-
  What the idealized program leaves in its result array, as a function of the launch memory.

  The second region's write-backs leave the thresholded dense layer of what it found: the hidden
  activations the first region left (the clamped dense layer of the input and the first weights
  and bias), the second weights as launched, and the second bias as a row.  The two reshaped
  bias rows read back to the launched bias vectors, so the result is the whole network of the
  five arguments.
-/
import proofs.«137112_j54778012893659_1_alg».proof.Proof.KI.Launch
import proofs.«137112_j54778012893659_1_alg».proof.Proof.KI.Entry
import proofs.«137112_j54778012893659_1_alg».proof.Proof.KI.L0Value
import proofs.«137112_j54778012893659_1_alg».proof.Proof.KI.L1Value

noncomputable section

namespace Cert.KernelIdeal.Layers

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The second region finds the hidden activations the first one left. -/
theorem atL1_hidden (c : Dev nD) : atL1 m c main_v2 = L1Arr m c := by
  simp only [atL1, afterL0, Function.update_self]

/-- Every other buffer is as the first region found it. -/
theorem atL1_other (c : Dev nD) (b : Ref sig .tc) (hb : b ≠ main_v2) : atL1 m c b = Gen.V1 m c b :=
  Function.update_of_ne (StableHlo.devRef_ne_of_ne hb) _ _

theorem kernel_result (c : Dev nD) :
    L2Arr (F := Ideal) m c
      = Cert.Spec.spikes (m ((c : Thread nD τ).loc main_arg0)) (m ((c : Thread nD τ).loc main_arg1))
          (fun n => m ((c : Thread nD τ).loc main_arg2) (ix1 n)) (m ((c : Thread nD τ).loc main_arg3))
          (fun n => m ((c : Thread nD τ).loc main_arg4) (ix1 n)) := by
  have hβ₂ : (fun n : Fin 4096 => atL1 m c main_v1 (ix2 0 n)) = fun n => m ((c : Thread nD τ).loc main_arg4) (ix1 n) :=
    funext fun n => by rw [atL1_other m c main_v1 (by decide)]; exact entry_bias1 m c n
  have hβ₁ : (fun n : Fin 4096 => atL0 m c main_v0 (ix2 0 n)) = fun n => m ((c : Thread nD τ).loc main_arg2) (ix1 n) :=
    funext fun n => entry_bias0 m c n
  unfold L2Arr
  rw [layer1_value, atL1_hidden, atL1_other m c main_arg3 (by decide), entry_arg3, hβ₂]
  unfold L1Arr
  rw [layer0_value, hβ₁]
  rw [show atL0 m c main_arg0 = m ((c : Thread nD τ).loc main_arg0) from entry_arg0 m c,
    show atL0 m c main_arg1 = m ((c : Thread nD τ).loc main_arg1) from entry_arg1 m c]
  rfl

end Cert.KernelIdeal.Layers

end
-- ==== Proof.RefSide.lean ====
/-
  The reference program read back as a function of its arguments, and identified with the
  two-layer network of the specification.

  The reference computes, stage by stage: the first contraction  ∑ k, x[r,k] · W₁[n,k];  the first
  bias broadcast along the rows; their sum; the clamp below at zero; the second contraction, whose
  left operand is the clamped first layer; the second bias; their sum; the comparison "greater than
  zero"; and the comparison's bit read as an unsigned integer.  Read at the index (r, n) every stage
  is an operation on single elements, so the last stage at (r, n) is the specification's
  `fire (dense (hidden x W₁ β₁) W₂ β₂ r n)`.
-/
import proofs.«137112_j54778012893659_1_alg».proof.Defs
import proofs.«137112_j54778012893659_1_alg».proof.Proof.Gen.ReferenceIdeal.Run
import proofs.«137112_j54778012893659_1_alg».proof.Proof.Gen.ReferenceIdeal.Read
import proofs.«137112_j54778012893659_1_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefSide

open Cert.ReferenceIdeal Cert.ReferenceIdeal.Gen Idealize.ShloMosaic Idealize.ShloMosaic.ValueIdx

/-! ## Where each stage reads its operands

A contraction's element (r, n) reads the left operand along row `r` and the right operand along
row `n`; a bias broadcast's element (r, n) reads the bias at `n`. -/

/-- The first contraction reads the activations at (r, k) … -/
theorem left₁ (r : Fin 8192) (n k : Fin 4096) : Read.lidx_main_v0 (ix2 r n) k = ix2 r k :=
  funext fun a => Fin.ext (by match a with | ⟨0, _⟩ => rfl | ⟨1, _⟩ => rfl)

/-- … and the first weights at (n, k). -/
theorem right₁ (r : Fin 8192) (n k : Fin 4096) : Read.ridx_main_v0 (ix2 r n) k = ix2 n k :=
  funext fun a => Fin.ext (by match a with | ⟨0, _⟩ => rfl | ⟨1, _⟩ => rfl)

/-- The first bias, broadcast to a row and then down the rows, is read at `n`. -/
theorem bias₁ (r : Fin 8192) (n : Fin 4096) : Read.idx_main_v1 (Read.idx_main_v2 (ix2 r n)) = ix1 n :=
  funext fun a => Fin.ext (by match a with | ⟨0, _⟩ => rfl)

/-- The second contraction reads the hidden layer at (r, k) … -/
theorem left₂ (r : Fin 8192) (n k : Fin 4096) : Read.lidx_main_v5 (ix2 r n) k = ix2 r k :=
  funext fun a => Fin.ext (by match a with | ⟨0, _⟩ => rfl | ⟨1, _⟩ => rfl)

/-- … and the second weights at (n, k). -/
theorem right₂ (r : Fin 8192) (n k : Fin 4096) : Read.ridx_main_v5 (ix2 r n) k = ix2 n k :=
  funext fun a => Fin.ext (by match a with | ⟨0, _⟩ => rfl | ⟨1, _⟩ => rfl)

/-- The second bias is read at `n`. -/
theorem bias₂ (r : Fin 8192) (n : Fin 4096) : Read.idx_main_v6 (Read.idx_main_v7 (ix2 r n)) = ix1 n :=
  funext fun a => Fin.ext (by match a with | ⟨0, _⟩ => rfl)

/-! ## The first layer -/

/-- The clamp stage at (r, k) is the specification's hidden layer: the inner product of row `r` of
    the activations with row `k` of the first weights, plus the bias at `k`, clamped below at the
    value of the zero word. -/
theorem hidden_at (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (r : Fin 8192) (k : Fin 4096) :
    Read.val_main_v4 (F := Ideal) x0 x1 x2 (ix2 r k)
      = Cert.Spec.hidden x0 x1 (fun n => x2 (ix1 n)) (ix2 r k) := by
  rw [Read.val_main_v4_apply, Read.val_main_v3_apply, Read.val_main_v0_apply, Read.val_main_v2_apply,
    Read.val_main_v1_apply, Read.val_main_call0_v0_apply, Read.val_main_call0_cst_apply]
  simp only [left₁, right₁, bias₁, Ideal.addf_def, Ideal.maximumf_def, Ideal.ofBits_def]
  rfl

/-! ## The whole network -/

/-- The reference's last stage is the specification, index by index. -/
theorem reference_is_spec (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) :
    Cert.ReferenceIdeal.Read.val_main_v11 (F := Ideal) x0 x1 x2 x3 x4
      = Cert.Spec.spikes x0 x1 (fun n => x2 (ix1 n)) x3 (fun n => x4 (ix1 n)) := by
  funext i
  obtain ⟨r, n, rfl⟩ : ∃ (r : Fin 8192) (n : Fin 4096), i = ix2 r n := ⟨i 0, i 1, eq_ix2 i⟩
  rw [Read.val_main_v11_apply, Read.val_main_v10_apply, Read.val_main_v8_apply, Read.val_main_v5_apply,
    Read.val_main_v7_apply, Read.val_main_v6_apply, Read.val_main_v9_apply, Read.val_main_cst_apply]
  simp only [left₂, right₂, bias₂, hidden_at, Ideal.addf_def, Ideal.cmpf_def, Ideal.ofBits_def]
  rfl

end Cert.ReferenceIdeal.RefSide

end
-- ==== Proof.lean ====
/-
  The certificate of a two-layer network computed tile by tile against the same network computed whole.

  Both kernel programs run their two regions in sequence, each region a K-blocked matrix product
  accumulated in a scratch buffer over four grid points and finished by the layer's epilogue; the
  frames of both are that run with the result dropped.  At the ideal values the second region's
  array is the thresholded dense layer of the first's clamped dense layer, the four block sums
  being the whole inner product; the reference computes the same function with whole products.
  The idealization rewrote nothing, so it preserves the program trivially.
-/
import proofs.«137112_j54778012893659_1_alg».proof.Defs
import proofs.«137112_j54778012893659_1_alg».proof.Proof.K.Launch
import proofs.«137112_j54778012893659_1_alg».proof.Proof.KI.Result
import proofs.«137112_j54778012893659_1_alg».proof.Proof.RefSide
import proofs.«137112_j54778012893659_1_alg».proof.Proof.Gen.Pre_finite_inputs

noncomputable section

namespace Cert.Proof

open Idealize.ShloMosaic Idealize.ShloMosaic.TcCoe Idealize.ShloMosaic.ValueIdx Idealize.SL.Sem

theorem frame_word : Cert.frame_Kernel := fun m ρ _ => Cert.Kernel.Layers.frame m ρ

theorem frame_ideal : Cert.frame_KernelIdeal := fun m ρ _ => Cert.KernelIdeal.Layers.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the network of the arguments, which agree. -/
theorem same_result : Cert.algebraic_KernelIdeal_ReferenceIdeal := by
  intro m ρ m' ρ' _ hagree
  refine ⟨fun c => Cert.KernelIdeal.Layers.L2Arr m c, ?_, ?_⟩
  · exact Cert.KernelIdeal.Layers.run_both m ρ
  · refine (θ_run Cert.ReferenceIdeal.defs _ _).mono (fun _ h c => ⟨(h c).1.trans ?_, (h c).2⟩)
      (Cert.ReferenceIdeal.Value.run (F := Ideal) m' ρ')
    show _ = Cert.KernelIdeal.Layers.L2Arr m c
    rw [Cert.KernelIdeal.Layers.kernel_result m c, ← (hagree c).1, ← (hagree c).2.1, ← (hagree c).2.2.1,
      ← (hagree c).2.2.2.1, ← (hagree c).2.2.2.2]
    exact (Cert.ReferenceIdeal.Read.val_main_v11_eq _ _ _ _ _).trans (Cert.ReferenceIdeal.RefSide.reference_is_spec _ _ _ _ _)

theorem claim : Cert.Claim :=
  ⟨Cert.Kernel.Gen.facts, Cert.KernelIdeal.Gen.facts, Cert.ReferenceIdeal.Gen.facts, Cert.Pre_finite_inputs.Gen.facts,
    frame_word, frame_ideal, frame_reference, trivial, same_result⟩

end Cert.Proof

end
